-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S32768x512 : Shape := ⟨2, ![32768, 512]⟩
abbrev S4096 : Shape := ⟨1, ![4096]⟩
abbrev S32768 : Shape := ⟨1, ![32768]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S4096 : S_.BroadcastsInDim S4096 (![] : Fin 0 → Fin S4096.rank)
  reducesTo_S4096_S_d0 : S4096.ReducesTo [0] S_
  bcast_S_S32768 : S_.BroadcastsInDim S32768 (![] : Fin 0 → Fin S32768.rank)
  reducesTo_S32768_S_d0 : S32768.ReducesTo [0] S_

variable [Facts]

def fn_part1 {F : FTy → Type} [FloatOps F] (main_arg3 : IVec S32768 32) (main_v15 : IVec S_ 1) (main_c_5 : IVec S_ 32) : IVec S_ 1 :=
  let main_v16 : IVec S32768 32 := broadcastInDim S32768 ![] bcast_S_S32768 main_c_5
  let main_v17 : IVec S32768 1 := cmpi .sge main_arg3 main_v16
  let main_c_6 : IVec S_ 32 := constantI S_ 32 10#32
  let main_v18 : IVec S32768 32 := broadcastInDim S32768 ![] bcast_S_S32768 main_c_6
  let main_v19 : IVec S32768 1 := cmpi .slt main_arg3 main_v18
  let main_v20 : IVec S32768 1 := andi main_v17 main_v19
  let main_c_7 : IVec S_ 1 := constantI S_ 1 1#1
  let main_v21 : IVec S_ 1 := (fun x v => Host.reduce IntOp.andi x v reducesTo_S32768_S_d0 h_S_) main_v20 main_c_7
  let main_v22 : IVec S_ 1 := andi main_v15 main_v21
  main_v22

def fn {F : FTy → Type} [FloatOps F] (main_arg0 : FVec F S4096x512 .f32) (main_arg1 : FVec F S32768x512 .f32) (main_arg2 : IVec S4096 32) (main_arg3 : IVec S32768 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 32 := constantI S_ 32 10#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S4096x512 : Shape := ⟨2, ![4096, 512]⟩
abbrev S32768x512 : Shape := ⟨2, ![32768, 512]⟩
abbrev S4096 : Shape := ⟨1, ![4096]⟩
abbrev S32768 : Shape := ⟨1, ![32768]⟩
abbrev S10 : Shape := ⟨1, ![10]⟩
abbrev S4096x1 : Shape := ⟨2, ![4096, 1]⟩
abbrev S1x10 : Shape := ⟨2, ![1, 10]⟩
abbrev S4096x10 : Shape := ⟨2, ![4096, 10]⟩
abbrev S32768x1 : Shape := ⟨2, ![32768, 1]⟩
abbrev S32768x10 : Shape := ⟨2, ![32768, 10]⟩
abbrev S_ : Shape := ⟨0, ![]⟩
abbrev S1x32768 : Shape := ⟨2, ![1, 32768]⟩
abbrev S2048x512 : Shape := ⟨2, ![2048, 512]⟩
abbrev S1024x512 : Shape := ⟨2, ![1024, 512]⟩
abbrev S2048x1 : Shape := ⟨2, ![2048, 1]⟩
abbrev S1x1024 : Shape := ⟨2, ![1, 1024]⟩
abbrev S1024x10 : Shape := ⟨2, ![1024, 10]⟩
abbrev S2048x10 : Shape := ⟨2, ![2048, 10]⟩
abbrev S512x1024 : Shape := ⟨2, ![512, 1024]⟩
abbrev S2048x1024 : Shape := ⟨2, ![2048, 1024]⟩
abbrev S2048 : Shape := ⟨1, ![2048]⟩

abbrev nBuf : Space → Nat
  | .hbm => 33
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S32768x512, .f32⟩
  | .hbm, ⟨2, _⟩ => ⟨S4096, .i32⟩
  | .hbm, ⟨3, _⟩ => ⟨S32768, .i32⟩
  | .hbm, ⟨4, _⟩ => ⟨S10, .i32⟩
  | .hbm, ⟨5, _⟩ => ⟨S4096x1, .i32⟩
  | .hbm, ⟨6, _⟩ => ⟨S1x10, .i32⟩
  | .hbm, ⟨7, _⟩ => ⟨S4096x10, .i32⟩
  | .hbm, ⟨8, _⟩ => ⟨S4096x10, .i32⟩
  | .hbm, ⟨9, _⟩ => ⟨S4096x10, .i1⟩
  | .hbm, ⟨10, _⟩ => ⟨S4096x10, .f32⟩
  | .hbm, ⟨11, _⟩ => ⟨S32768x1, .i32⟩
  | .hbm, ⟨12, _⟩ => ⟨S1x10, .i32⟩
  | .hbm, ⟨13, _⟩ => ⟨S32768x10, .i32⟩
  | .hbm, ⟨14, _⟩ => ⟨S32768x10, .i32⟩
  | .hbm, ⟨15, _⟩ => ⟨S32768x10, .i1⟩
  | .hbm, ⟨16, _⟩ => ⟨S32768x10, .bf16⟩
  | .hbm, ⟨17, _⟩ => ⟨S4096x512, .bf16⟩
  | .hbm, ⟨18, _⟩ => ⟨S32768x512, .bf16⟩
  | .hbm, ⟨19, _⟩ => ⟨S4096x512, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S32768x512, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S1x32768, .f32⟩
  | .hbm, ⟨28, _⟩ => ⟨S4096x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1, .f32⟩
  | .local _ .vmem, ⟨5, _⟩ => ⟨S2048x1, .f32⟩
  | .local _ .vmem, ⟨6, _⟩ => ⟨S1x1024, .f32⟩
  | .local _ .vmem, ⟨7, _⟩ => ⟨S1x1024, .f32⟩
  | .local _ .vmem, ⟨8, _⟩ => ⟨S1024x10, .bf16⟩
  | .local _ .vmem, ⟨9, _⟩ => ⟨S1024x10, .bf16⟩
  | .local _ .vmem, ⟨10, _⟩ => ⟨S2048x10, .f32⟩
  | .local _ .vmem, ⟨11, _⟩ => ⟨S2048x10, .f32⟩
  | .local _ .vmem, ⟨12, _⟩ => ⟨S2048x1, .f32⟩
  | .local _ .vmem, ⟨13, _⟩ => ⟨S2048x1, .f32⟩
  | .local _ .vmem, ⟨14, _⟩ => ⟨S2048x10, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v34 : BitVec 1 := Scalar.cmpi .eq arg1 c31_i32
  let v35 : BitVec 32 := Scalar.extui v34
  let c0_i32_18 : BitVec 32 := 0#32
  let v36 : BitVec 1 := Scalar.cmpi .ne v35 c0_i32_18
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x10 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S4096_S4096x1_0 : S4096.BroadcastsInDim S4096x1 (![0] : Fin 1 → Fin S4096x1.rank)
  bcast_S10_S1x10_1 : S10.BroadcastsInDim S1x10 (![1] : Fin 1 → Fin S1x10.rank)
  bcast_S4096x1_S4096x10_0_1 : S4096x1.BroadcastsInDim S4096x10 (![0, 1] : Fin 2 → Fin S4096x10.rank)
  bcast_S1x10_S4096x10_0_1 : S1x10.BroadcastsInDim S4096x10 (![0, 1] : Fin 2 → Fin S4096x10.rank)
  bcast_S32768_S32768x1_0 : S32768.BroadcastsInDim S32768x1 (![0] : Fin 1 → Fin S32768x1.rank)
  bcast_S32768x1_S32768x10_0_1 : S32768x1.BroadcastsInDim S32768x10 (![0, 1] : Fin 2 → Fin S32768x10.rank)
  bcast_S1x10_S32768x10_0_1 : S1x10.BroadcastsInDim S32768x10 (![0, 1] : Fin 2 → Fin S32768x10.rank)
  bitsLt_bf16_f32 : FTy.bits .bf16 < FTy.bits .f32
  reducesTo_S4096x512_S4096_d1 : S4096x512.ReducesTo [1] S4096
  h_S_ : 0 < S_.numel
  reducesTo_S32768x512_S32768_d1 : S32768x512.ReducesTo [1] S32768
  transposes_S32768x1_S1x32768_1_0 : S32768x1.Transposes [1, 0] S1x32768
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  reduces_S2048x10_S2048 : S2048x10.Reduces [1] S2048
  shapeCasts_S2048_S2048x1 : S2048.ShapeCasts S2048x1
  broadcasts_S2048x1_S2048x10 : S2048x1.Broadcasts S2048x10
  reducesTo_S4096x1_S_d0_1 : S4096x1.ReducesTo [0, 1] S_
  dot_S2048x512_S512x1024_S2048x1024_1_0_0_1_n_n_wf : DotDims.WF S2048x512 S512x1024 S2048x1024 [1] [0] [0] [1] [] []
  dot_S2048x1024_S1024x10_S2048x10_1_0_0_1_n_n_wf : DotDims.WF S2048x1024 S1024x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x512.size a
  hwx0_0 : ∀ i : grid0.Coords, EltTy.bits .bf16 = 32 ∨ (Rect.block (s := S4096x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .bf16 = 32 ∨ (Rect.block (s := S32768x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S4096x1.size a
  hwx0_2 : ∀ i : grid0.Coords, EltTy.bits .f32 = 32 ∨ (Rect.block (s := S4096x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x32768.size a
  hwx0_3 : ∀ i : grid0.Coords, EltTy.bits .f32 = 32 ∨ (Rect.block (s := S1x32768) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x10.size a ≤ S32768x10.size a
  hwx0_4 : ∀ i : grid0.Coords, EltTy.bits .bf16 = 32 ∨ (Rect.block (s := S32768x10) S1024x10.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x10.size a ≤ S4096x10.size a
  hwx0_5 : ∀ i : grid0.Coords, EltTy.bits .f32 = 32 ∨ (Rect.block (s := S4096x10) S2048x10.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S4096x1.size a
  hwx0_6 : ∀ i : grid0.Coords, EltTy.bits .f32 = 32 ∨ (Rect.block (s := S4096x1) S2048x1.size (cc0_transform_6 i) (hinb0_6 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x1024_S1024x10_S2048x10_1_0_0_1_n_n : DotDims S2048x1024 S1024x10 S2048x10 where
  lhsContracting := [1]
  rhsContracting := [0]
  lhsNonContracting := [0]
  rhsNonContracting := [1]
  lhsBatch := []
  rhsBatch := []
  wf := dot_S2048x1024_S1024x10_S2048x10_1_0_0_1_n_n_wf

abbrev win0_0 : Pipeline.Window sig grid0 :=
  Pipeline.Window.ofSpec (Memref.whole main_v13) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1024x10.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x10.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096x512 : Shape := ⟨2, ![4096, 512]⟩
abbrev S32768x512 : Shape := ⟨2, ![32768, 512]⟩
abbrev S4096 : Shape := ⟨1, ![4096]⟩
abbrev S32768 : Shape := ⟨1, ![32768]⟩
abbrev S_ : Shape := ⟨0, ![]⟩
abbrev S4096x1 : Shape := ⟨2, ![4096, 1]⟩
abbrev S512x32768 : Shape := ⟨2, ![512, 32768]⟩
abbrev S4096x32768 : Shape := ⟨2, ![4096, 32768]⟩
abbrev S1x32768 : Shape := ⟨2, ![1, 32768]⟩
abbrev S32768x4096 : Shape := ⟨2, ![32768, 4096]⟩
abbrev S10x4096 : Shape := ⟨2, ![10, 4096]⟩
abbrev S32768x1 : Shape := ⟨2, ![32768, 1]⟩
abbrev S4096x10 : Shape := ⟨2, ![4096, 10]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S32768x512, .f32⟩
  | .hbm, ⟨2, _⟩ => ⟨S4096, .i32⟩
  | .hbm, ⟨3, _⟩ => ⟨S32768, .i32⟩
  | .hbm, ⟨4, _⟩ => ⟨S4096x512, .f32⟩
  | .hbm, ⟨5, _⟩ => ⟨S_, .f32⟩
  | .hbm, ⟨6, _⟩ => ⟨S4096, .f32⟩
  | .hbm, ⟨7, _⟩ => ⟨S32768x512, .f32⟩
  | .hbm, ⟨8, _⟩ => ⟨S_, .f32⟩
  | .hbm, ⟨9, _⟩ => ⟨S32768, .f32⟩
  | .hbm, ⟨10, _⟩ => ⟨S4096x1, .f32⟩
  | .hbm, ⟨11, _⟩ => ⟨S512x32768, .f32⟩
  | .hbm, ⟨12, _⟩ => ⟨S4096x32768, .f32⟩
  | .hbm, ⟨13, _⟩ => ⟨S_, .f32⟩
  | .hbm, ⟨14, _⟩ => ⟨S4096x32768, .f32⟩
  | .hbm, ⟨15, _⟩ => ⟨S4096x32768, .f32⟩
  | .hbm, ⟨16, _⟩ => ⟨S4096x32768, .f32⟩
  | .hbm, ⟨17, _⟩ => ⟨S4096x32768, .f32⟩
  | .hbm, ⟨18, _⟩ => ⟨S1x32768, .f32⟩
  | .hbm, ⟨19, _⟩ => ⟨S4096x32768, .f32⟩
  | .hbm, ⟨20, _⟩ => ⟨S4096x32768, .f32⟩
  | .hbm, ⟨21, _⟩ => ⟨S4096x32768, .f32⟩
  | .hbm, ⟨22, _⟩ => ⟨S4096x32768, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096x1, .f32⟩
  | .hbm, ⟨29, _⟩ => ⟨S4096x32768, .f32⟩
  | .hbm, ⟨30, _⟩ => ⟨S4096x32768, .f32⟩
  | .hbm, ⟨31, _⟩ => ⟨S4096x32768, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x32768, .f32⟩
  | .hbm, ⟨36, _⟩ => ⟨S4096x32768, .f32⟩
  | .hbm, ⟨37, _⟩ => ⟨S32768x4096, .f32⟩
  | .hbm, ⟨38, _⟩ => ⟨S_, .f32⟩
  | .hbm, ⟨39, _⟩ => ⟨S10x4096, .f32⟩
  | .hbm, ⟨40, _⟩ => ⟨S32768x1, .i32⟩
  | .hbm, ⟨41, _⟩ => ⟨S10x4096, .f32⟩
  | .hbm, ⟨42, _⟩ => ⟨S4096x10, .f32⟩
  | .hbm, ⟨43, _⟩ => ⟨S_, .f32⟩
  | .hbm, ⟨44, _⟩ => ⟨S4096x10, .f32⟩
  | .hbm, ⟨45, _⟩ => ⟨S4096x10, .f32⟩
  | .hbm, ⟨46, _⟩ => ⟨S4096x10, .f32⟩
  | .hbm, ⟨47, _⟩ => ⟨S4096x1, .i32⟩
  | .hbm, ⟨48, _⟩ => ⟨S_, .i32⟩
  | .hbm, ⟨49, _⟩ => ⟨S4096x1, .i32⟩
  | .hbm, ⟨50, _⟩ => ⟨S4096x1, .i1⟩
  | .hbm, ⟨51, _⟩ => ⟨S_, .i32⟩
  | .hbm, ⟨52, _⟩ => ⟨S4096x1, .i32⟩
  | .hbm, ⟨53, _⟩ => ⟨S4096x1, .i32⟩
  | .hbm, ⟨54, _⟩ => ⟨S4096x1, .i32⟩
  | .hbm, ⟨55, _⟩ => ⟨S4096x1x1, .i32⟩
  | .hbm, ⟨56, _⟩ => ⟨S1, .i32⟩
  | .hbm, ⟨57, _⟩ => ⟨S_, .i32⟩
  | .hbm, ⟨58, _⟩ => ⟨S4096x1x1, .i32⟩
  | .hbm, ⟨59, _⟩ => ⟨S4096x1x1, .i1⟩
  | .hbm, ⟨60, _⟩ => ⟨S1x1x1, .i32⟩
  | .hbm, ⟨61, _⟩ => ⟨S4096x1x1, .i32⟩
  | .hbm, ⟨62, _⟩ => ⟨S4096x1x1, .i1⟩
  | .hbm, ⟨63, _⟩ => ⟨S4096x1x1, .i1⟩
  | .hbm, ⟨64, _⟩ => ⟨S_, .i1⟩
  | .hbm, ⟨65, _⟩ => ⟨S4096x1, .i1⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_cst : Ref sig .tc := ⟨.hbm, 67, rfl⟩
abbrev main_call0_v14 : Ref sig .tc := ⟨.hbm, 68, rfl⟩
abbrev main_v36 : Ref sig .tc := ⟨.hbm, 69, rfl⟩
abbrev main_v37 : Ref sig .tc := ⟨.hbm, 70, rfl⟩
abbrev main_cst_7 : Ref sig .tc := ⟨.hbm, 71, rfl⟩
abbrev main_v38 : Ref sig .tc := ⟨.hbm, 72, rfl⟩
abbrev main_cst_8 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  reducesTo_S32768x512_S32768_d1 : S32768x512.ReducesTo [1] S32768
  bcast_S4096_S4096x1_0 : S4096.BroadcastsInDim S4096x1 (![0] : Fin 1 → Fin S4096x1.rank)
  transposes_S32768x512_S512x32768_1_0 : S32768x512.Transposes [1, 0] S512x32768
  bcast_S_S4096x32768 : S_.BroadcastsInDim S4096x32768 (![] : Fin 0 → Fin S4096x32768.rank)
  bcast_S4096x1_S4096x32768_0_1 : S4096x1.BroadcastsInDim S4096x32768 (![0, 1] : Fin 2 → Fin S4096x32768.rank)
  bcast_S32768_S1x32768_1 : S32768.BroadcastsInDim S1x32768 (![1] : Fin 1 → Fin S1x32768.rank)
  bcast_S1x32768_S4096x32768_0_1 : S1x32768.BroadcastsInDim S4096x32768 (![0, 1] : Fin 2 → Fin S4096x32768.rank)
  reducesTo_S4096x32768_S4096_d1 : S4096x32768.ReducesTo [1] S4096
  bcast_S_S4096 : S_.BroadcastsInDim S4096 (![] : Fin 0 → Fin S4096.rank)
  transposes_S4096x32768_S32768x4096_1_0 : S4096x32768.Transposes [1, 0] S32768x4096
  bcast_S_S10x4096 : S_.BroadcastsInDim S10x4096 (![] : Fin 0 → Fin S10x4096.rank)
  bcast_S32768_S32768x1_0 : S32768.BroadcastsInDim S32768x1 (![0] : Fin 1 → Fin S32768x1.rank)
  transposes_S10x4096_S4096x10_1_0 : S10x4096.Transposes [1, 0] S4096x10
  bcast_S_S4096x10 : S_.BroadcastsInDim S4096x10 (![] : Fin 0 → Fin S4096x10.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  dot_S4096x512_S512x32768_S4096x32768_1_0_0_1_n_n_wf : DotDims.WF S4096x512 S512x32768 S4096x32768 [1] [0] [0] [1] [] []
  scatter_S10x4096_S32768x1_S32768x4096_1_0_0_1_wf : ScatterDims.WF S10x4096 S32768x1 S32768x4096 [1] [0] [0] 1
  gather_S4096x10_S4096x1x1_S4096x1_n_1_0_0_1_2_11_wf : GatherDims.WF S4096x10 S4096x1x1 S4096x1 [] [1] [0] [1] [0] 2 ![1, 1]

variable [Facts₀]

def dot_S4096x512_S512x32768_S4096x32768_1_0_0_1_n_n : DotDims S4096x512 S512x32768 S4096x32768 where
  lhsContracting := [1]
  rhsContracting := [0]
  lhsNonContracting := [0]
  rhsNonContracting := [1]
  lhsBatch := []
  rhsBatch := []
  wf := dot_S4096x512_S512x32768_S4096x32768_1_0_0_1_n_n_wf
def scatter_S10x4096_S32768x1_S32768x4096_1_0_0_1 : ScatterDims S10x4096 S32768x1 S32768x4096 where
  updateWindowDims := [1]
  insertedWindowDims := [0]
  scatterDimsToOperandDims := [0]
  indexVectorDim := 1
  wf := scatter_S10x4096_S32768x1_S32768x4096_1_0_0_1_wf
def gather_S4096x10_S4096x1x1_S4096x1_n_1_0_0_1_2_11 : GatherDims S4096x10 S4096x1x1 S4096x1 where
  offsetDims := []
  collapsedSliceDims := [1]
  operandBatchingDims := [0]
  startIndicesBatchingDims := [0]
  startIndexMap := [1]
  indexVectorDim := 2
  sliceSizes := ![1, 1]
  wf := gather_S4096x10_S4096x1x1_S4096x1_n_1_0_0_1_2_11_wf

class Facts : Prop extends Facts₀ where

variable [Facts]
-- ==== Proof.PreDecode.lean ====
/-
  What the precondition says, decoded: every entry of the two float inputs is a real number, and every label of the two
  integer inputs is one of the ten classes 0, …, 9.
-/
import proofs.«415756_j89532888252789_2_alg».proof.Pre_finite_inputs
import proofs.«415756_j89532888252789_2_alg».proof.Proof.Gen.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.ValueIdx Cert.Pre_finite_inputs Cert.Pre_finite_inputs.Gen

/-- The scalar shape has one index. -/
private theorem scalar_idx_subsingleton : Subsingleton S_.Idx := ⟨fun a b => funext fun d => d.elim0⟩

attribute [local instance] scalar_idx_subsingleton

/-- An extended real whose absolute value is below the pattern of +∞ is a real number. -/
private theorem real_of_abs_lt (x : EReal)
    (h : Ideal.cmp .olt (max x (-x)) (Ideal.ofBits .f32 0x7F800000#32) = 1#1) :
    x = ((x.toReal : ℝ) : EReal) := by
  have e : Ideal.ofBits .f32 0x7F800000#32 = ⊤ := by simp [Ideal.ofBits, Ideal.ieee]
  rw [e] at h
  induction x using EReal.rec with
  | bot => simp [Ideal.cmp] at h
  | top => simp [Ideal.cmp] at h
  | coe r => simp

private theorem ofBool_eq_one (b : Bool) : BitVec.ofBool b = 1#1 ↔ b = true := by cases b <;> decide

/-- A 32-bit word that is at least 0 and below 10, both read signed, is below 10 read unsigned. -/
private theorem label_of_range (w : BitVec 32)
    (h : IntOp.andi (IntOp.cmpi .sge w 0#32) (IntOp.cmpi .slt w 10#32) = 1#1) : w.toNat < 10 := by
  obtain ⟨h0, h1⟩ := IntOp.andi_eq_one.1 h
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

/-- The precondition, all ones, gives real entries and labels in range. -/
theorem decode (a0 : FVec Ideal S4096x512 .f32) (a1 : FVec Ideal S32768x512 .f32) (a2 : IVec S4096 32) (a3 : IVec S32768 32)
    (h : Cert.Pre_finite_inputs.fn (F := Ideal) a0 a1 a2 a3 = fun _ => 1#1) :
    ∃ (xr : Fin 4096 → Fin 512 → ℝ) (rr : Fin 32768 → Fin 512 → ℝ) (ly : Fin 4096 → Fin 10) (lr : Fin 32768 → Fin 10),
      (∀ (a : Fin 4096) (k : Fin 512), a0 (ix2 a k) = ((xr a k : ℝ) : EReal))
      ∧ (∀ (n : Fin 32768) (k : Fin 512), a1 (ix2 n k) = ((rr n k : ℝ) : EReal))
      ∧ (∀ a : Fin 4096, a2 (ix1 a) = BitVec.ofNat 32 (ly a).val)
      ∧ (∀ n : Fin 32768, a3 (ix1 n) = BitVec.ofNat 32 (lr n).val) := by
  have e := congrFun h ValueIdx.ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  have r0 : ∀ (a : Fin 4096) (k : Fin 512), a0 (ix2 a k) = (((a0 (ix2 a k)).toReal : ℝ) : EReal) := fun a k =>
    real_of_abs_lt _ (Host.reduce_andi_all _ _ _ _ ix0 e0 (ix2 a k))
  have r1 : ∀ (n : Fin 32768) (k : Fin 512), a1 (ix2 n k) = (((a1 (ix2 n k)).toReal : ℝ) : EReal) := fun n k =>
    real_of_abs_lt _ (Host.reduce_andi_all _ _ _ _ ix0 e1 (ix2 n k))
  have l2 : ∀ a : Fin 4096, (a2 (ix1 a)).toNat < 10 := fun a =>
    label_of_range _ (Host.reduce_andi_all _ _ _ _ ix0 e2 (ix1 a))
  have l3 : ∀ n : Fin 32768, (a3 (ix1 n)).toNat < 10 := fun n =>
    label_of_range _ (Host.reduce_andi_all _ _ _ _ ix0 e3 (ix1 n))
  refine ⟨fun a k => (a0 (ix2 a k)).toReal, fun n k => (a1 (ix2 n k)).toReal,
    fun a => ⟨(a2 (ix1 a)).toNat, l2 a⟩, fun n => ⟨(a3 (ix1 n)).toNat, l3 n⟩, r0, r1, fun a => ?_, fun n => ?_⟩
  · apply BitVec.eq_of_toNat_eq
    rw [BitVec.toNat_ofNat, Nat.mod_eq_of_lt (a2 (ix1 a)).isLt]
  · apply BitVec.eq_of_toNat_eq
    rw [BitVec.toNat_ofNat, Nat.mod_eq_of_lt (a3 (ix1 n)).isLt]

end Cert.PreDecode

end
-- ==== Proof.KPieces.lean ====
/-
  What each control case of the kernel body leaves behind, as a value of the blocks it was given.

  The body keeps a histogram block in a scratch buffer across the grid's reduction axis. At the first step of a row block
  it stores zero and then the zero plus this step's contribution; at every other step it stores what it found plus this
  step's contribution; at the last step it also reads the finished histogram back and stores the row losses into the output
  block. Each case's stores cover the buffer they write, so what the buffer holds afterwards is the last stored value, a load
  after a store reading what was stored.
-/
import proofs.«415756_j89532888252789_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

/-- The origin of a two-axis block, as the constant-zero coordinate function. -/
private theorem hz : (![0, 0] : Fin 2 → Nat) = fun _ => 0 := funext fun a => by fin_cases a <;> rfl

/-- First step of a row block: the scratch ends at zero plus the step's contribution. -/
theorem sout_A (c : Dev nD) (i : grid0.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x10 .bf16) (harg6 : arg6.IsWhole) (arg7 : Memref sig .tc .vmem S2048x10 .f32) (harg7 : arg7.IsWhole) (arg8 : Memref sig .tc .vmem S2048x1 .f32) (harg8 : arg8.IsWhole) (arg9 : Memref sig .tc .vmem S2048x10 .f32) (harg9 : arg9.IsWhole) (hc0 : cond0_0 i) (hc1 : ¬cond0_1 i)
    (x0 : Vec F S2048x512 .bf16) (x1 : Vec F S1024x512 .bf16) (x2 : Vec F S2048x1 .f32) (x3 : Vec F S1x1024 .f32) (x4 : Vec F S1024x10 .bf16) (x5 : Vec F S2048x10 .f32) :
    sout0_A_0 c i arg2 harg2 arg3 harg3 arg4 harg4 arg5 harg5 arg6 harg6 arg7 harg7 arg8 harg8 arg9 harg9 hc0 hc1 x0 x1 x2 x3 x4 x5 = k0_pay3 x0 x1 x2 x3 x4 (k0_pay2 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S2048x10) hz, View.readCov_unit_zero (S := S2048x10) _ hz]
  simp only [View.readAt_eq_ld, harg2.read_unread, harg3.read_unread, harg4.read_unread, harg5.read_unread, harg6.read_unread, harg7.read_unread, harg8.read_unread, harg9.read_unread, View.ld_unit_zero (S := S2048x512) hz, View.ld_unit_zero (S := S1024x512) hz, View.ld_unit_zero (S := S2048x1) hz, View.ld_unit_zero (S := S1x1024) hz, View.ld_unit_zero (S := S1024x10) hz, View.ld_unit_zero (S := S2048x10) hz, shapeCast_self]

/-- A middle step: the scratch ends at what it held plus the step's contribution. -/
theorem sout_B (c : Dev nD) (i : grid0.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x10 .bf16) (harg6 : arg6.IsWhole) (arg7 : Memref sig .tc .vmem S2048x10 .f32) (harg7 : arg7.IsWhole) (arg8 : Memref sig .tc .vmem S2048x1 .f32) (harg8 : arg8.IsWhole) (arg9 : Memref sig .tc .vmem S2048x10 .f32) (harg9 : arg9.IsWhole) (hc0 : ¬cond0_0 i) (hc1 : ¬cond0_1 i)
    (x0 : Vec F S2048x512 .bf16) (x1 : Vec F S1024x512 .bf16) (x2 : Vec F S2048x1 .f32) (x3 : Vec F S1x1024 .f32) (x4 : Vec F S1024x10 .bf16) (x5 : Vec F S2048x10 .f32) (xs0 : Vec F S2048x10 .f32) :
    sout0_B_0 c i arg2 harg2 arg3 harg3 arg4 harg4 arg5 harg5 arg6 harg6 arg7 harg7 arg8 harg8 arg9 harg9 hc0 hc1 x0 x1 x2 x3 x4 x5 xs0 = k0_pay3 x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S2048x512) hz, View.ld_unit_zero (S := S1024x512) hz, View.ld_unit_zero (S := S2048x1) hz, View.ld_unit_zero (S := S1x1024) hz, View.ld_unit_zero (S := S1024x10) hz, View.ld_unit_zero (S := S2048x10) hz, shapeCast_self]

/-- The last step: the scratch likewise, -/
theorem sout_C (c : Dev nD) (i : grid0.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x10 .bf16) (harg6 : arg6.IsWhole) (arg7 : Memref sig .tc .vmem S2048x10 .f32) (harg7 : arg7.IsWhole) (arg8 : Memref sig .tc .vmem S2048x1 .f32) (harg8 : arg8.IsWhole) (arg9 : Memref sig .tc .vmem S2048x10 .f32) (harg9 : arg9.IsWhole) (hc0 : ¬cond0_0 i) (hc1 : cond0_1 i)
    (x0 : Vec F S2048x512 .bf16) (x1 : Vec F S1024x512 .bf16) (x2 : Vec F S2048x1 .f32) (x3 : Vec F S1x1024 .f32) (x4 : Vec F S1024x10 .bf16) (x5 : Vec F S2048x10 .f32) (xs0 : Vec F S2048x10 .f32) :
    sout0_C_0 c i arg2 harg2 arg3 harg3 arg4 harg4 arg5 harg5 arg6 harg6 arg7 harg7 arg8 harg8 arg9 harg9 hc0 hc1 x0 x1 x2 x3 x4 x5 xs0 = k0_pay3 x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S2048x512) hz, View.ld_unit_zero (S := S1024x512) hz, View.ld_unit_zero (S := S2048x1) hz, View.ld_unit_zero (S := S1x1024) hz, View.ld_unit_zero (S := S1024x10) hz, View.ld_unit_zero (S := S2048x10) hz, shapeCast_self]

/-- and the output block holds the row losses of the finished histogram. -/
theorem out_C (c : Dev nD) (i : grid0.Coords) (arg2 : Memref sig .tc .vmem S2048x512 .bf16) (harg2 : arg2.IsWhole) (arg3 : Memref sig .tc .vmem S1024x512 .bf16) (harg3 : arg3.IsWhole) (arg4 : Memref sig .tc .vmem S2048x1 .f32) (harg4 : arg4.IsWhole) (arg5 : Memref sig .tc .vmem S1x1024 .f32) (harg5 : arg5.IsWhole) (arg6 : Memref sig .tc .vmem S1024x10 .bf16) (harg6 : arg6.IsWhole) (arg7 : Memref sig .tc .vmem S2048x10 .f32) (harg7 : arg7.IsWhole) (arg8 : Memref sig .tc .vmem S2048x1 .f32) (harg8 : arg8.IsWhole) (arg9 : Memref sig .tc .vmem S2048x10 .f32) (harg9 : arg9.IsWhole) (hc0 : ¬cond0_0 i) (hc1 : cond0_1 i)
    (x0 : Vec F S2048x512 .bf16) (x1 : Vec F S1024x512 .bf16) (x2 : Vec F S2048x1 .f32) (x3 : Vec F S1x1024 .f32) (x4 : Vec F S1024x10 .bf16) (x5 : Vec F S2048x10 .f32) (xs0 : Vec F S2048x10 .f32) :
    out0_C_6 c i arg2 harg2 arg3 harg3 arg4 harg4 arg5 harg5 arg6 harg6 arg7 harg7 arg8 harg8 arg9 harg9 hc0 hc1 x0 x1 x2 x3 x4 x5 xs0 = k0_pay1 (k0_pay3 x0 x1 x2 x3 x4 xs0) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, View.readCov_unit_zero (S := S2048x10) _ hz, harg2.read_unread, harg3.read_unread, harg4.read_unread, harg5.read_unread, harg6.read_unread, harg7.read_unread, harg8.read_unread, harg9.read_unread, View.ld_unit_zero (S := S2048x512) hz, View.ld_unit_zero (S := S1024x512) hz, View.ld_unit_zero (S := S2048x1) hz, View.ld_unit_zero (S := S1x1024) hz, View.ld_unit_zero (S := S1024x10) hz, View.ld_unit_zero (S := S2048x10) hz, shapeCast_self]

end Cert.KernelIdeal.Pieces

end
-- ==== Proof.LibColumns.lean ====
/-
  A column kept by a row reduction: the two layout operations a sum over the last axis with the axis kept
  (`keepdims`) goes through before it meets the array it was taken from again, read at an index.

  An `[a]` vector of row values is cast to an `[a, 1]` column (row-major order is unchanged: entry `i` of the
  vector is entry `(i, 0)` of the column), and the column is broadcast along the second axis to `[a, b]`
  (every entry of row `p` reads the column at `p`). Both over any element type and any extents.
-/
import Idealize.ShloMosaic.Lib.Pipeline.Value
import Idealize.ShloMosaic.Lib.ValueIdx

namespace Cert.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.Columns
-- ==== Proof.IdealReal.lean ====
/-
  Extended-real arithmetic on real numbers: the few facts by which a chain of exact operations on finite values is read
  as one real expression. A finite sum of real numbers is the real sum; a square root, a logarithm and a quotient of real
  numbers inside their domains are the real ones; and what the literals of the two programs denote.
-/
import Idealize.ShloMosaic.PureOps.Ideal
import Idealize.ShloMosaic.PureOps.Ideal.Laws

noncomputable section

namespace Cert.IdealReal

open Idealize.ShloMosaic

/-- A finite sum of real numbers, taken in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem ofBits_zero : Ideal.ofBits .f32 0x00000000#32 = ((0 : ℝ) : EReal) := by
  simp [Ideal.ofBits, Ideal.ieee]

theorem ofBits_two : Ideal.ofBits .f32 0x40000000#32 = ((2 : ℝ) : EReal) := by
  simp [Ideal.ofBits, Ideal.ieee, -EReal.coe_mul]
  norm_num

theorem ofBits_4096 : Ideal.ofBits .f32 0x45800000#32 = ((4096 : ℝ) : EReal) := by
  simp [Ideal.ofBits, Ideal.ieee, -EReal.coe_mul]
  norm_num

/-- The pattern of negative infinity. -/
theorem ofBits_neg_inf : Ideal.ofBits .f32 0xFF800000#32 = (⊥ : EReal) := by
  simp [Ideal.ofBits, Ideal.ieee]

/-- The small positive constant both programs add under the logarithm: the real number its binary pattern denotes. -/
def eps : ℝ := (Ideal.ofBits .f32 0x358637BD#32).toReal

theorem ofBits_eps : Ideal.ofBits .f32 0x358637BD#32 = ((eps : ℝ) : EReal) := by
  unfold eps
  simp [Ideal.ofBits, Ideal.ieee, -EReal.coe_mul]

theorem eps_pos : 0 < eps := by
  unfold eps
  simp [Ideal.ofBits, Ideal.ieee, -EReal.coe_mul]

theorem sqrt_coe {r : ℝ} (h : 0 ≤ r) : Ideal.sqrt (r : EReal) = ((Real.sqrt r : ℝ) : EReal) := by
  rw [Ideal.sqrt_coe, if_neg (not_lt.mpr h)]

theorem log_coe {r : ℝ} (h : 0 < r) : Ideal.log (r : EReal) = ((Real.log r : ℝ) : EReal) := by
  rw [Ideal.log_coe, if_neg (not_le.mpr h)]

theorem div_coe {x y : ℝ} (h : y ≠ 0) : Ideal.div (x : EReal) (y : EReal) = ((x / y : ℝ) : EReal) := by
  rw [Ideal.div_coe h, ← EReal.coe_mul, mul_one_div]

/-- A one-bit word read as a number is one where the bit is set and zero where it is not. -/
theorem uitofp_bit (φ : FTy) (b : BitVec 1) :
    FloatOps.uitofp (F := Ideal) φ b = (((if b = 1#1 then 1 else 0 : ℝ)) : EReal) := by
  show (((b.toNat : ℝ)) : EReal) = _
  have hb : b = 0#1 ∨ b = 1#1 := by
    revert b; decide
  rcases hb with rfl | rfl <;> simp

end Cert.IdealReal

end
-- ==== Proof.KPayload.lean ====
/-
  The kernel body's three stored values, read at an index, when every block it loads holds real numbers.

  The accumulating store: to the carried histogram block `s` it adds, at row `p` and class `q`, the sum over the 1024
  reference rows `n` of the block of  exp(−√(max d 0)) · o n q,  where  d = ‖a p‖² − 2⟨a p, b n⟩ + ‖b n‖²  is the expanded
  squared distance between row `p` of the query block `a` and row `n` of the reference block `b` (the two squared norms
  arrive precomputed, as a column and as a row), and `o` is the block of class indicators.

  The final store: from the finished histogram block `h` (non-negative, each row's total positive) and the block `o` of
  the query rows' class indicators it writes, at row `p`,  −Σ_c (log (h p c + ε·Σ h p ·) − log (Σ h p ·)) · o p c.

  The reset stores zero.
-/
import proofs.«415756_j89532888252789_2_alg».proof.Proof.Gen.KernelIdeal.Skeleton
import proofs.«415756_j89532888252789_2_alg».proof.Proof.LibColumns
import proofs.«415756_j89532888252789_2_alg».proof.Proof.IdealReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The expanded squared distance between row `p` of a query block and row `n` of a reference block. -/
def bsqd (a : Fin 2048 → Fin 512 → ℝ) (b : Fin 1024 → Fin 512 → ℝ) (p : Fin 2048) (n : Fin 1024) : ℝ :=
  (∑ k, a p k * a p k) - 2 * (∑ k, a p k * b n k) + ∑ k, b n k * b n k

/-! ## Pointwise square root, exponential and logarithm read at an index -/

private theorem sqrt_apply {s : Shape} {φ : FTy} (x : FVec Ideal s φ) (i : s.Idx) : sqrt x i = Ideal.sqrt (x i) := rfl
private theorem exp_apply {s : Shape} {φ : FTy} (x : FVec Ideal s φ) (i : s.Idx) : exp x i = Ideal.exp (x i) := rfl
private theorem log_apply {s : Shape} {φ : FTy} (x : FVec Ideal s φ) (i : s.Idx) : log x i = Ideal.log (x i) := rfl

/-- The larger of two real numbers, taken in the extended reals, is the real maximum. -/
private theorem coe_max (x y : ℝ) : max (x : EReal) (y : EReal) = ((max x y : ℝ) : EReal) :=
  (EReal.coe_strictMono.monotone.map_max).symm

/-! ## The two matrix products into a zero accumulator

Each operand index of a product splits into the output's coordinate on the kept axis and the contraction's one
coordinate on the contracted axis; the four facts per product say which is which. -/

private theorem lhsA_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
private theorem lhsA_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
private theorem rhsA_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
private theorem rhsA_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The `[2048, 512]` by `[512, 1024]` product at `(p, c)`: the sum over the 512 shared coordinates. -/
private theorem matmulA_apply (x : FVec Ideal S2048x512 .bf16) (y : FVec Ideal S512x1024 .bf16) (p : Fin 2048) (c : Fin 1024) :
    matmul dot_S2048x512_S512x1024_S2048x1024_1_0_0_1_n_n none x y (constant (F := Ideal) S2048x1024 .f32 0x00000000#32) (ix2 p c)
      = ∑ k : Fin 512, x (ix2 p k) * y (ix2 k c) := by
  show FloatOps.matmul dot_S2048x512_S512x1024_S2048x1024_1_0_0_1_n_n none x y (constant (F := Ideal) S2048x1024 .f32 0x00000000#32) (ix2 p c) = _
  rw [Ideal.matmul_constant_zero_apply, ← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p c) ((contrEquiv1 dot_S2048x512_S512x1024_S2048x1024_1_0_0_1_n_n 512 rfl rfl).symm k) = ix2 p k := funext fun a => Fin.ext (by
    match a with
    | ⟨0, _⟩ => exact lhsA_0 _ _
    | ⟨1, _⟩ => exact (lhsA_1 _ _).trans hk)
  have er : dot_S2048x512_S512x1024_S2048x1024_1_0_0_1_n_n.rhsIdx (ix2 p c) ((contrEquiv1 dot_S2048x512_S512x1024_S2048x1024_1_0_0_1_n_n 512 rfl rfl).symm k) = ix2 k c := funext fun a => Fin.ext (by
    match a with
    | ⟨0, _⟩ => exact (rhsA_0 _ _).trans hk
    | ⟨1, _⟩ => exact rhsA_1 _ _)
  rw [el, er]

private theorem lhsB_0 (i : S2048x10.Idx) (q : dot_S2048x1024_S1024x10_S2048x10_1_0_0_1_n_n.contr.Idx) :
    (dot_S2048x1024_S1024x10_S2048x10_1_0_0_1_n_n.lhsIdx i q 0).val = (i 0).val := by
  unfold DotDims.lhsIdx
  rw [dif_neg (show ¬(0 : Fin S2048x1024.rank) ∈ dot_S2048x1024_S1024x10_S2048x10_1_0_0_1_n_n.lhsBatch by decide), dif_pos (show (0 : Fin S2048x1024.rank) ∈ dot_S2048x1024_S1024x10_S2048x10_1_0_0_1_n_n.lhsNonContracting by decide)]
  rfl
private theorem lhsB_1 (i : S2048x10.Idx) (q : dot_S2048x1024_S1024x10_S2048x10_1_0_0_1_n_n.contr.Idx) :
    (dot_S2048x1024_S1024x10_S2048x10_1_0_0_1_n_n.lhsIdx i q 1).val = (q ⟨0, by decide⟩).val :=
  dot_S2048x1024_S1024x10_S2048x10_1_0_0_1_n_n.lhsIdx_val_of_single rfl i q
private theorem rhsB_0 (i : S2048x10.Idx) (q : dot_S2048x1024_S1024x10_S2048x10_1_0_0_1_n_n.contr.Idx) :
    (dot_S2048x1024_S1024x10_S2048x10_1_0_0_1_n_n.rhsIdx i q 0).val = (q ⟨0, by decide⟩).val :=
  dot_S2048x1024_S1024x10_S2048x10_1_0_0_1_n_n.rhsIdx_val_of_single rfl i q
private theorem rhsB_1 (i : S2048x10.Idx) (q : dot_S2048x1024_S1024x10_S2048x10_1_0_0_1_n_n.contr.Idx) :
    (dot_S2048x1024_S1024x10_S2048x10_1_0_0_1_n_n.rhsIdx i q 1).val = (i 1).val := by
  unfold DotDims.rhsIdx
  rw [dif_neg (show ¬(1 : Fin S1024x10.rank) ∈ dot_S2048x1024_S1024x10_S2048x10_1_0_0_1_n_n.rhsBatch by decide), dif_pos (show (1 : Fin S1024x10.rank) ∈ dot_S2048x1024_S1024x10_S2048x10_1_0_0_1_n_n.rhsNonContracting by decide)]
  rfl

/-- The `[2048, 1024]` by `[1024, 10]` product at `(p, c)`: the sum over the 1024 shared coordinates. -/
private theorem matmulB_apply (x : FVec Ideal S2048x1024 .bf16) (y : FVec Ideal S1024x10 .bf16) (p : Fin 2048) (c : Fin 10) :
    matmul dot_S2048x1024_S1024x10_S2048x10_1_0_0_1_n_n none x y (constant (F := Ideal) S2048x10 .f32 0x00000000#32) (ix2 p c)
      = ∑ k : Fin 1024, x (ix2 p k) * y (ix2 k c) := by
  show FloatOps.matmul dot_S2048x1024_S1024x10_S2048x10_1_0_0_1_n_n none x y (constant (F := Ideal) S2048x10 .f32 0x00000000#32) (ix2 p c) = _
  rw [Ideal.matmul_constant_zero_apply, ← Equiv.sum_comp (contrEquiv1 dot_S2048x1024_S1024x10_S2048x10_1_0_0_1_n_n 1024 rfl rfl).symm]
  refine Finset.sum_congr rfl fun k _ => ?_
  have hk := contrEquiv1_symm_val dot_S2048x1024_S1024x10_S2048x10_1_0_0_1_n_n 1024 rfl rfl k
  have el : dot_S2048x1024_S1024x10_S2048x10_1_0_0_1_n_n.lhsIdx (ix2 p c) ((contrEquiv1 dot_S2048x1024_S1024x10_S2048x10_1_0_0_1_n_n 1024 rfl rfl).symm k) = ix2 p k := funext fun a => Fin.ext (by
    match a with
    | ⟨0, _⟩ => exact lhsB_0 _ _
    | ⟨1, _⟩ => exact (lhsB_1 _ _).trans hk)
  have er : dot_S2048x1024_S1024x10_S2048x10_1_0_0_1_n_n.rhsIdx (ix2 p c) ((contrEquiv1 dot_S2048x1024_S1024x10_S2048x10_1_0_0_1_n_n 1024 rfl rfl).symm k) = ix2 k c := funext fun a => Fin.ext (by
    match a with
    | ⟨0, _⟩ => exact (rhsB_0 _ _).trans hk
    | ⟨1, _⟩ => exact rhsB_1 _ _)
  rw [el, er]

/-! ## A row's sum over the ten classes -/

/-- The lane sum of a `[2048, 10]` block read at row `p`: the sum of the row's ten entries. -/
private theorem rowsum_apply (v : FVec Ideal S2048x10 .f32) (h : S2048x10.Reduces [1] S2048) (hφ : FKind.Formats .f32)
    (hacc : (0x00000000#32 : BitVec 32) = 0x00000000#32) (p : Fin 2048) :
    multiReduction (F := Ideal) .add [1] S2048 v 0x00000000#32 h hφ hacc (ix1 p) = ∑ c : Fin 10, v (ix2 p c) := by
  refine (Ideal.multiReduction_add_single v 0x00000000#32 h hφ hacc (ix1 p)).trans ?_
  refine Finset.sum_congr rfl fun c _ => congrArg v (funext fun a => Fin.ext ?_)
  match a with
  | ⟨0, _⟩ => rfl
  | ⟨1, _⟩ => rfl

/-! ## The constants -/

private theorem lit_zero : FloatOps.ofBits (F := Ideal) .f32 0x00000000#32 = ((0 : ℝ) : EReal) := Cert.IdealReal.ofBits_zero
private theorem lit_two : FloatOps.ofBits (F := Ideal) .f32 0x40000000#32 = ((2 : ℝ) : EReal) := Cert.IdealReal.ofBits_two
private theorem lit_eps : FloatOps.ofBits (F := Ideal) .f32 0x358637BD#32 = ((Cert.IdealReal.eps : ℝ) : EReal) :=
  Cert.IdealReal.ofBits_eps

/-! ## One term of each store, from extended-real to real arithmetic -/

/-- One reference row's contribution: all of its operations on real numbers are the real ones. -/
private theorem kernel_term (A S B ov : ℝ) :
    Ideal.exp (((0 : ℝ) : EReal) - Ideal.sqrt (max ((A : EReal) - ((2 : ℝ) : EReal) * (S : EReal) + (B : EReal)) ((0 : ℝ) : EReal))) * (ov : EReal)
      = ((Real.exp (-(Real.sqrt (max (A - 2 * S + B) 0))) * ov : ℝ) : EReal) := by
  rw [← EReal.coe_mul, ← EReal.coe_sub, ← EReal.coe_add, coe_max, Cert.IdealReal.sqrt_coe (le_max_right _ _), ← EReal.coe_sub,
    Ideal.exp_coe, ← EReal.coe_mul, zero_sub]

/-- One class's contribution to the final store: both logarithms are taken of positive real numbers. -/
private theorem log_term {x T ov : ℝ} (hx : 0 < x + Cert.IdealReal.eps * T) (hT : 0 < T) :
    (Ideal.log ((x : EReal) + ((Cert.IdealReal.eps : ℝ) : EReal) * (T : EReal)) - Ideal.log (T : EReal)) * (ov : EReal)
      = (((Real.log (x + Cert.IdealReal.eps * T) - Real.log T) * ov : ℝ) : EReal) := by
  rw [← EReal.coe_mul, ← EReal.coe_add, Cert.IdealReal.log_coe hx, Cert.IdealReal.log_coe hT, ← EReal.coe_sub, ← EReal.coe_mul]

/-- The reset's value. -/
theorem pay2_real (p : Fin 2048) (q : Fin 10) : k0_pay2 (F := Ideal) (ix2 p q) = ((0 : ℝ) : EReal) := by
  unfold k0_pay2
  rw [shapeCast_self]
  exact Cert.IdealReal.ofBits_zero

/-- The accumulating store's value on real blocks. -/
theorem pay3_real (a : Fin 2048 → Fin 512 → ℝ) (b : Fin 1024 → Fin 512 → ℝ) (o : Fin 1024 → Fin 10 → ℝ) (s : Fin 2048 → Fin 10 → ℝ)
    (x0 : Vec Ideal S2048x512 .bf16) (x1 : Vec Ideal S1024x512 .bf16) (x2 : Vec Ideal S2048x1 .f32)
    (x3 : Vec Ideal S1x1024 .f32) (x4 : Vec Ideal S1024x10 .bf16) (xs : Vec Ideal S2048x10 .f32)
    (h0 : ∀ (p : Fin 2048) (k : Fin 512), x0 (ix2 p k) = ((a p k : ℝ) : EReal))
    (h1 : ∀ (n : Fin 1024) (k : Fin 512), x1 (ix2 n k) = ((b n k : ℝ) : EReal))
    (h2 : ∀ (p : Fin 2048) (u : Fin 1), x2 (ix2 p u) = ((∑ k, a p k * a p k : ℝ) : EReal))
    (h3 : ∀ (u : Fin 1) (n : Fin 1024), x3 (ix2 u n) = ((∑ k, b n k * b n k : ℝ) : EReal))
    (h4 : ∀ (n : Fin 1024) (q : Fin 10), x4 (ix2 n q) = ((o n q : ℝ) : EReal))
    (hs : ∀ (p : Fin 2048) (q : Fin 10), xs (ix2 p q) = ((s p q : ℝ) : EReal))
    (p : Fin 2048) (q : Fin 10) :
    k0_pay3 (F := Ideal) x0 x1 x2 x3 x4 xs (ix2 p q)
      = ((s p q + ∑ n : Fin 1024, Real.exp (-(Real.sqrt (max (bsqd a b p n) 0))) * o n q : ℝ) : EReal) := by
  unfold k0_pay3
  simp only [shapeCast_self, addf_apply, matmulB_apply, truncf_apply, exp_apply, subf_apply, broadcast_apply, sqrt_apply,
    maximumf_apply, mulf_apply, matmulA_apply, Cert.Columns.broadcastTo_a1_ab_apply, broadcastTo_1b_ab_apply,
    h0, h2, h3, h4, hs, lit_zero, lit_two]
  -- the transposed reference block reads, at `(k, n)`, the block at `(n, k)`
  have tr : ∀ (k : Fin 512) (n : Fin 1024),
      transpose S512x1024 [1, 0] x1 transposes_S1024x512_p1_0_S512x1024 (ix2 k n) = x1 (ix2 n k) :=
    fun k n => transpose_ix2_apply x1 _ k n
  simp only [tr, h1]
  -- the inner product of two real rows is the real one
  have inner : ∀ n : Fin 1024, (∑ k : Fin 512, ((a p k : ℝ) : EReal) * ((b n k : ℝ) : EReal))
      = ((∑ k, a p k * b n k : ℝ) : EReal) := fun n => by
    simp only [← EReal.coe_mul, Cert.IdealReal.coe_sum]
  simp only [inner, kernel_term, Cert.IdealReal.coe_sum]
  rw [← EReal.coe_add]
  rfl

/-- The final store's value on a real histogram block. -/
theorem pay1_real (h : Fin 2048 → Fin 10 → ℝ) (o : Fin 2048 → Fin 10 → ℝ)
    (acc : Vec Ideal S2048x10 .f32) (oh : Vec Ideal S2048x10 .f32)
    (hacc : ∀ (p : Fin 2048) (c : Fin 10), acc (ix2 p c) = ((h p c : ℝ) : EReal))
    (hoh : ∀ (p : Fin 2048) (c : Fin 10), oh (ix2 p c) = ((o p c : ℝ) : EReal))
    (hnn : ∀ (p : Fin 2048) (c : Fin 10), 0 ≤ h p c) (hpos : ∀ p : Fin 2048, 0 < ∑ c, h p c)
    (p : Fin 2048) (u : Fin 1) :
    k0_pay1 (F := Ideal) acc oh (ix2 p u)
      = ((-(∑ c, (Real.log (h p c + Cert.IdealReal.eps * ∑ c', h p c') - Real.log (∑ c', h p c')) * o p c) : ℝ) : EReal) := by
  unfold k0_pay1
  simp only [shapeCast_self, subf_apply, broadcast_apply, Cert.Columns.shapeCast_a_a1_apply, lit_zero]
  rw [rowsum_apply]
  simp only [mulf_apply, subf_apply, log_apply, addf_apply, Cert.Columns.broadcastTo_a1_ab_apply, Cert.Columns.shapeCast_a_a1_apply,
    broadcast_apply, lit_eps, hoh]
  rw [rowsum_apply]
  simp only [hacc, Cert.IdealReal.coe_sum]
  -- each class's term: both logarithms are of positive real numbers
  have hterm : ∀ c : Fin 10,
      (Ideal.log (((h p c : ℝ) : EReal) + ((Cert.IdealReal.eps : ℝ) : EReal) * ((∑ c', h p c' : ℝ) : EReal))
          - Ideal.log ((∑ c', h p c' : ℝ) : EReal)) * ((o p c : ℝ) : EReal)
        = (((Real.log (h p c + Cert.IdealReal.eps * ∑ c', h p c') - Real.log (∑ c', h p c')) * o p c : ℝ) : EReal) :=
    fun c => log_term (add_pos_of_nonneg_of_pos (hnn p c) (mul_pos Cert.IdealReal.eps_pos (hpos p))) (hpos p)
  simp only [hterm, Cert.IdealReal.coe_sum]
  rw [← EReal.coe_sub, zero_sub]

end Cert.KernelIdeal.Payload

end
-- ==== Proof.KHost.lean ====
/-
  The host lines around the kernel's one launch, read at an index (at the ideal instance).

  Before the launch the program casts the two float inputs to a narrower format (the identity here), sums the squares of each
  input's rows — a column of 4096 query norms and a row of 32768 reference norms —, and compares each label with the ten class
  numbers 0, …, 9, the comparison read as the number 1 or 0. After the launch it adds up the 4096 row losses and divides by 4096.
-/
import proofs.«415756_j89532888252789_2_alg».proof.Proof.Gen.KernelIdeal.Frame
import proofs.«415756_j89532888252789_2_alg».proof.Proof.IdealReal
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The four arguments as the launch finds them, typed as arrays. -/
abbrev xarr (c : Dev nD) : S4096x512.Idx → EReal := m ((c : Thread nD τ).loc main_arg0)
abbrev rarr (c : Dev nD) : S32768x512.Idx → EReal := m ((c : Thread nD τ).loc main_arg1)
abbrev yarr (c : Dev nD) : S4096.Idx → BitVec 32 := m ((c : Thread nD τ).loc main_arg2)
abbrev yrarr (c : Dev nD) : S32768.Idx → BitVec 32 := m ((c : Thread nD τ).loc main_arg3)

/-- The narrowed copy of the query rows is the query rows. -/
theorem V_v13 (c : Dev nD) (a : Fin 4096) (k : Fin 512) :
    (V m c main_v13 : S4096x512.Idx → EReal) (ix2 a k) = xarr m c (ix2 a k) := by
  have e : (V m c main_v13 : S4096x512.Idx → EReal)
      = truncf (F := Ideal) (s := S4096x512) (φ := .f32) .bf16 (xarr m c) bitsLt_bf16_f32 := by
    show StableHlo.after hostOps0 (fun b => m (c, b)) (Proc.devRef .tc main_v13) = _
    after_results
  rw [e]
  rfl

/-- The narrowed copy of the reference rows is the reference rows. -/
theorem V_v14 (c : Dev nD) (n : Fin 32768) (k : Fin 512) :
    (V m c main_v14 : S32768x512.Idx → EReal) (ix2 n k) = rarr m c (ix2 n k) := by
  have e : (V m c main_v14 : S32768x512.Idx → EReal)
      = truncf (F := Ideal) (s := S32768x512) (φ := .f32) .bf16 (rarr m c) bitsLt_bf16_f32 := by
    show StableHlo.after hostOps0 (fun b => m (c, b)) (Proc.devRef .tc main_v14) = _
    after_results
  rw [e]
  rfl

/-- A sum of squares along the rows of an array of 512 columns, read at a row: the initial value plus the sum of the
    row's squared entries. -/
private theorem rowSquares {n : Nat} (h' : (⟨2, ![n, 512]⟩ : Shape).ReducesTo [1] ⟨1, ![n]⟩)
    (h : (⟨2, ![n, 512]⟩ : Shape).Reduces [1] ⟨1, ![n]⟩)
    (x : (⟨2, ![n, 512]⟩ : Shape).Idx → EReal) (z : S_.Idx → EReal) (hz : 0 < S_.numel) (a : Fin n) :
    Host.reduceAdd (F := Ideal) (φ := .f32) (mulf (F := Ideal) (s := ⟨2, ![n, 512]⟩) (φ := .f32) x x) z h' hz (ix1 a)
      = z (Shape.Idx.first hz) + ∑ k : Fin 512, x (ix2 a k) * x (ix2 a k) := by
  simp only [Host.reduceAdd, Ideal.hostReduceAdd_def]
  rw [Ideal.hostReduceAdd_single h' h]
  refine congrArg (_ + ·) (Finset.sum_congr rfl fun k _ => ?_)
  have hi : h.lift (ix1 a) k = ix2 a k :=
    funext fun b => Fin.ext (by match b with | ⟨0, _⟩ => rfl | ⟨1, _⟩ => rfl)
  rw [hi]
  rfl

/-- The column of squared query norms. -/
theorem V_v17 (c : Dev nD) (a : Fin 4096) (u : Fin 1) :
    (V m c main_v17 : S4096x1.Idx → EReal) (ix2 a u)
      = Ideal.ofBits .f32 0x00000000#32 + ∑ k : Fin 512, xarr m c (ix2 a k) * xarr m c (ix2 a k) := by
  have e : (V m c main_v17 : S4096x1.Idx → EReal)
      = broadcastInDim S4096x1 ![0] bcast_S4096_S4096x1_0
          (Host.reduceAdd (F := Ideal) (mulf (F := Ideal) (s := S4096x512) (φ := .f32) (xarr m c) (xarr m c))
            (constant (F := Ideal) S_ .f32 0x00000000#32) reducesTo_S4096x512_S4096_d1 h_S_) := by
    show StableHlo.after hostOps0 (fun b => m (c, b)) (Proc.devRef .tc main_v17) = _
    after_results
  rw [e, broadcastInDim_apply _ bcast_S4096_S4096x1_0 _ (ix2 a u) (ix1 a) (fun b => match b with
    | ⟨0, _⟩ => by show a.val = if (4096 : Nat) = 1 then 0 else a.val; rw [if_neg (by decide)]),
    rowSquares reducesTo_S4096x512_S4096_d1 (by decide)]
  rfl

/-- The row of squared reference norms. -/
theorem V_v21 (c : Dev nD) (u : Fin 1) (n : Fin 32768) :
    (V m c main_v21 : S1x32768.Idx → EReal) (ix2 u n)
      = Ideal.ofBits .f32 0x00000000#32 + ∑ k : Fin 512, rarr m c (ix2 n k) * rarr m c (ix2 n k) := by
  have e : (V m c main_v21 : S1x32768.Idx → EReal)
      = transpose S1x32768 [1, 0] (broadcastInDim S32768x1 ![0] bcast_S32768_S32768x1_0
          (Host.reduceAdd (F := Ideal) (mulf (F := Ideal) (s := S32768x512) (φ := .f32) (rarr m c) (rarr m c))
            (constant (F := Ideal) S_ .f32 0x00000000#32) reducesTo_S32768x512_S32768_d1 h_S_))
          transposes_S32768x1_S1x32768_1_0 := by
    show StableHlo.after hostOps0 (fun b => m (c, b)) (Proc.devRef .tc main_v21) = _
    after_results
  rw [e, transpose_apply [1, 0] _ transposes_S32768x1_S1x32768_1_0 (ix2 u n) (ix2 n u) (fun b => match b with
    | ⟨0, _⟩ => rfl
    | ⟨1, _⟩ => rfl),
    broadcastInDim_apply _ bcast_S32768_S32768x1_0 _ (ix2 n u) (ix1 n) (fun b => match b with
    | ⟨0, _⟩ => by show n.val = if (32768 : Nat) = 1 then 0 else n.val; rw [if_neg (by decide)]),
    rowSquares reducesTo_S32768x512_S32768_d1 (by decide)]
  rfl

/-- Labels compared with the ten class numbers: the labels laid along the rows of an array of ten columns, the numbers
    0, …, 9 laid along its columns, compared entry by entry and the comparison read as a number. At row `a`, column `q`
    it is 1 where the label of row `a` is the word `q`, and 0 elsewhere. -/
private theorem classIndicator {n : Nat} (φ : FTy)
    (h₁ : (⟨1, ![n]⟩ : Shape).BroadcastsInDim ⟨2, ![n, 1]⟩ ![0])
    (h₂ : (⟨2, ![n, 1]⟩ : Shape).BroadcastsInDim ⟨2, ![n, 10]⟩ ![0, 1])
    (h₃ : (⟨1, ![10]⟩ : Shape).BroadcastsInDim ⟨2, ![1, 10]⟩ ![1])
    (h₄ : (⟨2, ![1, 10]⟩ : Shape).BroadcastsInDim ⟨2, ![n, 10]⟩ ![0, 1])
    (y : (⟨1, ![n]⟩ : Shape).Idx → BitVec 32) (a : Fin n) (q : Fin 10) :
    uitofp (F := Ideal) (s := ⟨2, ![n, 10]⟩) φ
        (cmpi .eq (broadcastInDim ⟨2, ![n, 10]⟩ ![0, 1] h₂ (broadcastInDim ⟨2, ![n, 1]⟩ ![0] h₁ y))
          (broadcastInDim ⟨2, ![n, 10]⟩ ![0, 1] h₄ (broadcastInDim ⟨2, ![1, 10]⟩ ![1] h₃ (iotaInDim ⟨1, ![10]⟩ 32 0))))
        (ix2 a q)
      = (((if y (ix1 a) = BitVec.ofNat 32 q.val then 1 else 0 : ℝ)) : EReal) := by
  have hij : (ix2 a q : (⟨2, ![n, 10]⟩ : Shape).Idx) = StableHlo.Predicate.ij a q :=
    funext fun b => by match b with | ⟨0, _⟩ => rfl | ⟨1, _⟩ => rfl
  have ha : (Shape.Idx.ofFin a : (⟨1, ![n]⟩ : Shape).Idx) = ix1 a :=
    funext fun b => by match b with | ⟨0, _⟩ => exact Fin.ext rfl
  show FloatOps.uitofp (F := Ideal) φ
      (IntOp.cmpi .eq (broadcastInDim ⟨2, ![n, 10]⟩ ![0, 1] h₂ (broadcastInDim ⟨2, ![n, 1]⟩ ![0] h₁ y) (ix2 a q))
        (broadcastInDim ⟨2, ![n, 10]⟩ ![0, 1] h₄ (broadcastInDim ⟨2, ![1, 10]⟩ ![1] h₃ (iotaInDim ⟨1, ![10]⟩ 32 0)) (ix2 a q))) = _
  rw [Cert.IdealReal.uitofp_bit, hij, StableHlo.Predicate.bcast_rows, StableHlo.Predicate.bcast_cols,
    StableHlo.Predicate.iota_apply, ha]
  by_cases hy : y (ix1 a) = BitVec.ofNat 32 q.val
  · rw [if_pos hy, if_pos (StableHlo.Predicate.cmpi_eq_iff.mpr hy)]
  · rw [if_neg hy, if_neg (fun hc => hy (StableHlo.Predicate.cmpi_eq_iff.mp hc))]

/-- The reference rows' class indicators. -/
theorem V_v12 (c : Dev nD) (n : Fin 32768) (q : Fin 10) :
    (V m c main_v12 : S32768x10.Idx → EReal) (ix2 n q)
      = (((if yrarr m c (ix1 n) = BitVec.ofNat 32 q.val then 1 else 0 : ℝ)) : EReal) := by
  have e : (V m c main_v12 : S32768x10.Idx → EReal)
      = uitofp (F := Ideal) (s := S32768x10) .bf16
          (cmpi .eq (broadcastInDim S32768x10 ![0, 1] bcast_S32768x1_S32768x10_0_1
              (broadcastInDim S32768x1 ![0] bcast_S32768_S32768x1_0 (yrarr m c)))
            (broadcastInDim S32768x10 ![0, 1] bcast_S1x10_S32768x10_0_1
              (broadcastInDim S1x10 ![1] bcast_S10_S1x10_1 (iotaInDim S10 32 0)))) := by
    show StableHlo.after hostOps0 (fun b => m (c, b)) (Proc.devRef .tc main_v12) = _
    after_results
  rw [e]
  exact classIndicator .bf16 bcast_S32768_S32768x1_0 bcast_S32768x1_S32768x10_0_1 bcast_S10_S1x10_1
    bcast_S1x10_S32768x10_0_1 (yrarr m c) n q

/-- The query rows' class indicators. -/
theorem V_v6 (c : Dev nD) (a : Fin 4096) (q : Fin 10) :
    (V m c main_v6 : S4096x10.Idx → EReal) (ix2 a q)
      = (((if yarr m c (ix1 a) = BitVec.ofNat 32 q.val then 1 else 0 : ℝ)) : EReal) := by
  have e : (V m c main_v6 : S4096x10.Idx → EReal)
      = uitofp (F := Ideal) (s := S4096x10) .f32
          (cmpi .eq (broadcastInDim S4096x10 ![0, 1] bcast_S4096x1_S4096x10_0_1
              (broadcastInDim S4096x1 ![0] bcast_S4096_S4096x1_0 (yarr m c)))
            (broadcastInDim S4096x10 ![0, 1] bcast_S1x10_S4096x10_0_1
              (broadcastInDim S1x10 ![1] bcast_S10_S1x10_1 (iotaInDim S10 32 0)))) := by
    show StableHlo.after hostOps0 (fun b => m (c, b)) (Proc.devRef .tc main_v6) = _
    after_results
  rw [e]
  exact classIndicator .f32 bcast_S4096_S4096x1_0 bcast_S4096x1_S4096x10_0_1 bcast_S10_S1x10_1
    bcast_S1x10_S4096x10_0_1 (yarr m c) a q

/-- The output array after the launch, as an array of 4096 rows and one column. -/
abbrev outArr (c : Dev nD) : S4096x1.Idx → EReal := (dats m 0 c).arrAt 6 cfg0.N

/-- After the launch: the result is the sum of the output array's entries over 4096. -/
theorem tail_v24 (c : Dev nD) :
    (Pipeline.afterTail₀ cfgs (dats m) 0 (V0 m) [hostOps1] c main_v24 : S_.Idx → EReal)
      = fun _ => Ideal.div (Ideal.ofBits .f32 0x00000000#32 + ∑ j : S4096x1.Idx, outArr m c j)
          (Ideal.ofBits .f32 0x45800000#32) := by
  unfold Pipeline.afterTail₀
  show StableHlo.after hostOps1 _ (Proc.devRef .tc main_v24) = _
  after_results
  -- the array the last lines read is the launch's output array
  have hw : (Pipeline.withArrays (cfgs 0).spec c (V0 m c) (fun w => (dats m 0 c).arrAt w (cfgs 0).N)
      (Proc.devRef .tc main_v22) : S4096x1.Idx → EReal) = outArr m c :=
    Pipeline.withArrays_arr spec0 launch0.win.arr_inj c _ _ 6
  rw [hw]
  generalize outArr m c = y
  funext i
  -- a sum over both axes into a single number is the initial value plus the sum over every index
  simp only [Host.divf, Host.reduceAdd, Ideal.hostDivf_def, Ideal.hostReduceAdd_def]
  rw [Ideal.hostReduceAdd_total reducesTo_S4096x1_S_d0_1 (fun b => b.elim0)]
  rfl

end Cert.KernelIdeal.HostValue

end
-- ==== Proof.Spec.lean ====
/-
  The mathematics of the certificate, over the reals, with no program in sight.

  A soft nearest-neighbour loss: for each of 4096 query rows `x a` and 32768 reference rows `r n` (512 features each)
  the squared distance is taken in its expanded form  ‖x a‖² − 2⟨x a, r n⟩ + ‖r n‖²  (`sqd`), which is the sum of the squares
  of the coordinate differences and so never negative (`sqd_nonneg`). Each reference row carries a class label `lr n`, each
  query row a label `ly a`, out of ten classes.

  One program weighs reference row `n` by  exp(−√(max (sqd a n) 0))  (`weight`), adds the weights up class by class
  (`hist`; `histUpTo K` is the same sum over the first `1024·K` reference rows only, the running value after `K` blocks of
  1024 rows), takes the total `mass`, and reports, per row,  −(log (hist a c + ε·mass a) − log (mass a))  at the row's own
  class `c = ly a` (written as a sum against the indicator of that class), averaged over the rows: `kernelLoss`.

  The other program forms the softmax of  −√(sqd a n)  over `n`, after subtracting some shift `mm a` from every score of
  row `a` (`shifted`, `softmax`), adds the softmax weights up class by class (`classMass`), and reports
  −mean_a log (classMass a (ly a) + ε): `refLoss`.

  They are the same number, whatever the shift and for every ε > 0 (`kernelLoss_eq_refLoss`): the clamp `max · 0` does nothing
  to a number that is never negative; the common factor exp(−mm a) cancels between a softmax's numerator and denominator;
  the mass is positive, so  log (h/M + ε) = log (h + ε·M) − log M;  and a sum against the indicator of one class is that
  class's term.
-/
import Mathlib.Analysis.SpecialFunctions.Log.Basic
import Mathlib.Analysis.SpecialFunctions.Sqrt
import Mathlib.Analysis.SpecialFunctions.Exp
import Mathlib.Algebra.BigOperators.Fin
import Mathlib.Algebra.Order.BigOperators.Ring.Finset

noncomputable section

namespace Cert.Ask

open Finset

/-- Row `p` of row block `i` (two blocks of 2048 query rows). -/
def rowIdx (i : Fin 2) (p : Fin 2048) : Fin 4096 := ⟨2048 * i.val + p.val, by have := i.isLt; have := p.isLt; omega⟩

/-- Row `j` of reference block `K` (thirty-two blocks of 1024 reference rows). -/
def blockIdx (K : Fin 32) (j : Fin 1024) : Fin 32768 := ⟨1024 * K.val + j.val, by have := K.isLt; have := j.isLt; omega⟩

variable (x : Fin 4096 → Fin 512 → ℝ) (r : Fin 32768 → Fin 512 → ℝ)
variable (ly : Fin 4096 → Fin 10) (lr : Fin 32768 → Fin 10) (ε : ℝ)

/-- The squared distance between query row `a` and reference row `n`, in expanded form. -/
def sqd (a : Fin 4096) (n : Fin 32768) : ℝ :=
  (∑ k, x a k * x a k) - 2 * (∑ k, x a k * r n k) + ∑ k, r n k * r n k

/-- The expanded form is the sum of the squared coordinate differences. -/
theorem sqd_eq_sum_sq (a : Fin 4096) (n : Fin 32768) : sqd x r a n = ∑ k, (x a k - r n k) ^ 2 := by
  unfold sqd
  rw [Finset.mul_sum, ← Finset.sum_sub_distrib, ← Finset.sum_add_distrib]
  refine Finset.sum_congr rfl (fun k _ => ?_)
  ring

theorem sqd_nonneg (a : Fin 4096) (n : Fin 32768) : 0 ≤ sqd x r a n := by
  rw [sqd_eq_sum_sq]
  exact Finset.sum_nonneg (fun k _ => sq_nonneg _)

/-- The unnormalised weight of reference row `n` for query row `a`. -/
def weight (a : Fin 4096) (n : Fin 32768) : ℝ := Real.exp (-(Real.sqrt (max (sqd x r a n) 0)))

theorem weight_pos (a : Fin 4096) (n : Fin 32768) : 0 < weight x r a n := Real.exp_pos _

/-- The indicator of class `c` at reference row `n`. -/
def ind (c : Fin 10) (n : Fin 32768) : ℝ := if lr n = c then 1 else 0

/-- The weights of class `c` over the first `1024·K` reference rows. -/
def histUpTo (K : ℕ) (a : Fin 4096) (c : Fin 10) : ℝ :=
  ∑ n : Fin 32768, if n.val < 1024 * K then weight x r a n * ind lr c n else 0

/-- The weights of class `c` over all reference rows. -/
def hist (a : Fin 4096) (c : Fin 10) : ℝ := ∑ n, weight x r a n * ind lr c n

theorem histUpTo_zero (a : Fin 4096) (c : Fin 10) : histUpTo x r lr 0 a c = 0 := by
  unfold histUpTo
  refine Finset.sum_eq_zero (fun n _ => ?_)
  rw [if_neg]
  omega

/-- One more block of 1024 reference rows. -/
theorem histUpTo_succ (K : Fin 32) (a : Fin 4096) (c : Fin 10) :
    histUpTo x r lr (K.val + 1) a c
      = histUpTo x r lr K.val a c + ∑ j : Fin 1024, weight x r a (blockIdx K j) * ind lr c (blockIdx K j) := by
  have hsplit : ∀ n : Fin 32768,
      (if n.val < 1024 * (K.val + 1) then weight x r a n * ind lr c n else 0)
        = (if n.val < 1024 * K.val then weight x r a n * ind lr c n else 0)
          + (if 1024 * K.val ≤ n.val ∧ n.val < 1024 * (K.val + 1)
              then weight x r a n * ind lr c n else 0) := by
    intro n
    by_cases h1 : n.val < 1024 * K.val
    · have h2 : n.val < 1024 * (K.val + 1) := by omega
      have h3 : ¬ (1024 * K.val ≤ n.val ∧ n.val < 1024 * (K.val + 1)) := by omega
      rw [if_pos h1, if_pos h2, if_neg h3, add_zero]
    · by_cases h2 : n.val < 1024 * (K.val + 1)
      · have h3 : 1024 * K.val ≤ n.val ∧ n.val < 1024 * (K.val + 1) := ⟨by omega, h2⟩
        rw [if_neg h1, if_pos h2, if_pos h3, zero_add]
      · have h3 : ¬ (1024 * K.val ≤ n.val ∧ n.val < 1024 * (K.val + 1)) := fun h => h2 h.2
        rw [if_neg h1, if_neg h2, if_neg h3, add_zero]
  unfold histUpTo
  rw [Finset.sum_congr rfl (fun n _ => hsplit n), Finset.sum_add_distrib]
  rw [add_right_inj, ← Finset.sum_filter]
  symm
  refine Finset.sum_bij (fun j _ => blockIdx K j) ?_ ?_ ?_ ?_
  · intro j _
    have := j.isLt
    simp only [Finset.mem_filter, Finset.mem_univ, true_and, blockIdx]
    omega
  · intro j₁ _ j₂ _ h
    have h' := congrArg Fin.val h
    simp only [blockIdx] at h'
    exact Fin.ext (by omega)
  · intro n hn
    simp only [Finset.mem_filter, Finset.mem_univ, true_and] at hn
    refine ⟨⟨n.val - 1024 * K.val, by omega⟩, Finset.mem_univ _, Fin.ext ?_⟩
    simp only [blockIdx]
    omega
  · intro j _
    rfl

theorem histUpTo_full (a : Fin 4096) (c : Fin 10) : histUpTo x r lr 32 a c = hist x r lr a c := by
  unfold histUpTo hist
  refine Finset.sum_congr rfl (fun n _ => ?_)
  rw [if_pos]
  have := n.isLt
  omega

theorem hist_nonneg (a : Fin 4096) (c : Fin 10) : 0 ≤ hist x r lr a c := by
  unfold hist
  refine Finset.sum_nonneg (fun n _ => mul_nonneg (weight_pos x r a n).le ?_)
  unfold ind
  split_ifs
  · exact zero_le_one
  · exact le_refl 0

/-- The total weight of query row `a`: every reference row has exactly one class. -/
def mass (a : Fin 4096) : ℝ := ∑ c, hist x r lr a c

theorem mass_eq_sum_weight (a : Fin 4096) : mass x r lr a = ∑ n, weight x r a n := by
  unfold mass hist
  rw [Finset.sum_comm]
  refine Finset.sum_congr rfl (fun n _ => ?_)
  rw [← Finset.mul_sum]
  unfold ind
  rw [Finset.sum_ite_eq, if_pos (Finset.mem_univ _), mul_one]

theorem mass_pos (a : Fin 4096) : 0 < mass x r lr a := by
  rw [mass_eq_sum_weight]
  exact Finset.sum_pos (fun n _ => weight_pos x r a n) Finset.univ_nonempty

/-- The first program's loss of row `a`. -/
def rowLoss (a : Fin 4096) : ℝ :=
  -(∑ c, (Real.log (hist x r lr a c + ε * mass x r lr a) - Real.log (mass x r lr a)) * (if ly a = c then 1 else 0))

/-- The first program's result. -/
def kernelLoss : ℝ := (∑ a, rowLoss x r ly lr ε a) / 4096

/-- A score of row `a`, shifted by `mm a`, exponentiated. -/
def shifted (mm : Fin 4096 → ℝ) (a : Fin 4096) (n : Fin 32768) : ℝ := Real.exp (-(Real.sqrt (sqd x r a n)) - mm a)

def softmax (mm : Fin 4096 → ℝ) (a : Fin 4096) (n : Fin 32768) : ℝ := shifted x r mm a n / ∑ n', shifted x r mm a n'

/-- The softmax weights of class `c`. -/
def classMass (mm : Fin 4096 → ℝ) (a : Fin 4096) (c : Fin 10) : ℝ := ∑ n, if lr n = c then softmax x r mm a n else 0

/-- The second program's result. -/
def refLoss (mm : Fin 4096 → ℝ) : ℝ := -((∑ a, Real.log (classMass x r lr mm a (ly a) + ε)) / 4096)

/-- A shifted, exponentiated score is the weight times a factor that depends on the row only. -/
private theorem shifted_eq (mm : Fin 4096 → ℝ) (a : Fin 4096) (n : Fin 32768) :
    shifted x r mm a n = weight x r a n * Real.exp (-(mm a)) := by
  unfold shifted weight
  rw [max_eq_left (sqd_nonneg x r a n), sub_eq_add_neg, Real.exp_add]

/-- The row's factor cancels between numerator and denominator of the softmax. -/
private theorem softmax_eq_weight_div_mass (mm : Fin 4096 → ℝ) (a : Fin 4096) (n : Fin 32768) :
    softmax x r mm a n = weight x r a n / mass x r lr a := by
  unfold softmax
  rw [mass_eq_sum_weight, Finset.sum_congr rfl (fun n' _ => shifted_eq x r mm a n'), shifted_eq,
    ← Finset.sum_mul, mul_div_mul_right _ _ (Real.exp_pos _).ne']

/-- The softmax does not see the shift, and the class masses are the histogram over the mass. -/
theorem classMass_eq (mm : Fin 4096 → ℝ) (a : Fin 4096) (c : Fin 10) :
    classMass x r lr mm a c = hist x r lr a c / mass x r lr a := by
  unfold classMass hist
  rw [div_eq_mul_inv, Finset.sum_mul]
  refine Finset.sum_congr rfl (fun n _ => ?_)
  rw [softmax_eq_weight_div_mass x r lr mm a n]
  unfold ind
  split_ifs
  · rw [mul_one, div_eq_mul_inv]
  · rw [mul_zero, zero_mul]

theorem rowLoss_eq (hε : 0 < ε) (a : Fin 4096) :
    rowLoss x r ly lr ε a = -(Real.log (hist x r lr a (ly a) / mass x r lr a + ε)) := by
  have hM : 0 < mass x r lr a := mass_pos x r lr a
  have hh : 0 ≤ hist x r lr a (ly a) := hist_nonneg x r lr a (ly a)
  have hpos : 0 < hist x r lr a (ly a) + ε * mass x r lr a :=
    add_pos_of_nonneg_of_pos hh (mul_pos hε hM)
  unfold rowLoss
  simp only [mul_ite, mul_one, mul_zero]
  rw [Finset.sum_ite_eq, if_pos (Finset.mem_univ _), ← Real.log_div hpos.ne' hM.ne']
  congr 2
  field_simp

/-- The two programs' results are one number. -/
theorem kernelLoss_eq_refLoss (hε : 0 < ε) (mm : Fin 4096 → ℝ) :
    kernelLoss x r ly lr ε = refLoss x r ly lr ε mm := by
  unfold kernelLoss refLoss
  rw [← neg_div, ← Finset.sum_neg_distrib]
  congr 1
  refine Finset.sum_congr rfl (fun a _ => ?_)
  rw [rowLoss_eq x r ly lr ε hε a, classMass_eq]

end Cert.Ask

end
-- ==== Proof.KBlocks.lean ====
/-
  The six input blocks of the launch at a grid point, read at an index, on real inputs with labels in range.

  The grid has two row blocks of 2048 query rows and, inside each, thirty-two steps over blocks of 1024 reference rows: point
  `t` is row block `t / 32`, step `t % 32`. The query-side windows (the rows, their squared norms, their class indicators)
  move with the row block; the reference-side windows (the rows, their squared norms, their class indicators) move with the
  step. A block's entry is the array's entry at block index × block size + the coordinate inside the block.
-/
import proofs.«415756_j89532888252789_2_alg».proof.Proof.Gen.KernelIdeal.Frame
import proofs.«415756_j89532888252789_2_alg».proof.Proof.KHost
import proofs.«415756_j89532888252789_2_alg».proof.Proof.IdealReal
import proofs.«415756_j89532888252789_2_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.KernelIdeal.HostValue Idealize.ShloMosaic Idealize.ShloMosaic.TcCoe Idealize.SL.Sem
open Idealize.ShloMosaic.ValueIdx

/-- The row block of a grid point. -/
def rowOf (t : Fin cfg0.N) : Fin 2 :=
  ⟨t.val / 32, by have h : t.val < 64 := lt_of_lt_of_eq t.isLt (show cfg0.N = 64 from N_0); omega⟩

/-- The reduction step of a grid point. -/
def stepOf (t : Fin cfg0.N) : Fin 32 := ⟨t.val % 32, Nat.mod_lt _ (by norm_num)⟩

variable (m : (ℓ : Loc nD τ sig) → Buf (Elt Ideal) ℓ)
variable (xr : Fin 4096 → Fin 512 → ℝ) (rr : Fin 32768 → Fin 512 → ℝ) (ly : Fin 4096 → Fin 10) (lr : Fin 32768 → Fin 10)

/-- Where each window's index map sends a grid point: the query-side windows to the row block, the reference-side windows
    to the step. -/
private theorem idx0 : ∀ t : Fin cfg0.N, win0_0.index t 0 = t.val / 32 ∧ win0_0.index t 1 = 0 :=
  (by decide +kernel : ∀ t : Fin grid0.N, _)

private theorem idx1 : ∀ t : Fin cfg0.N, win0_1.index t 0 = t.val % 32 ∧ win0_1.index t 1 = 0 :=
  (by decide +kernel : ∀ t : Fin grid0.N, _)

private theorem idx2 : ∀ t : Fin cfg0.N, win0_2.index t 0 = t.val / 32 ∧ win0_2.index t 1 = 0 :=
  (by decide +kernel : ∀ t : Fin grid0.N, _)

private theorem idx3 : ∀ t : Fin cfg0.N, win0_3.index t 0 = 0 ∧ win0_3.index t 1 = t.val % 32 :=
  (by decide +kernel : ∀ t : Fin grid0.N, _)

private theorem idx4 : ∀ t : Fin cfg0.N, win0_4.index t 0 = t.val % 32 ∧ win0_4.index t 1 = 0 :=
  (by decide +kernel : ∀ t : Fin grid0.N, _)

private theorem idx5 : ∀ t : Fin cfg0.N, win0_5.index t 0 = t.val / 32 ∧ win0_5.index t 1 = 0 :=
  (by decide +kernel : ∀ t : Fin grid0.N, _)

/-- Window 0's block is rows `2048 · (t / 32) + p` of the narrowed query rows. -/
private theorem blk0_idx (c : Dev nD) (t : Fin cfg0.N) (p : Fin 2048) (k : Fin 512) :
    (iblk m c 0 t : S2048x512.Idx → EReal) (ix2 p k)
      = (V m c main_v13 : S4096x512.Idx → EReal) (ix2 (Cert.Ask.rowIdx (rowOf t) p) k) := by
  unfold iblk
  rw [View.read_apply]
  show V m c main_v13 _ = V m c main_v13 _
  congr 1
  funext a
  apply Fin.ext
  match a with
  | ⟨0, _⟩ =>
    show win0_0.index t 0 * 2048 + 1 * p.val = 2048 * (t.val / 32) + p.val
    rw [(idx0 t).1]; omega
  | ⟨1, _⟩ =>
    show win0_0.index t 1 * 512 + 1 * k.val = k.val
    rw [(idx0 t).2]; omega

/-- Window 1's block is rows `1024 · (t % 32) + n` of the narrowed reference rows. -/
private theorem blk1_idx (c : Dev nD) (t : Fin cfg0.N) (n : Fin 1024) (k : Fin 512) :
    (iblk m c 1 t : S1024x512.Idx → EReal) (ix2 n k)
      = (V m c main_v14 : S32768x512.Idx → EReal) (ix2 (Cert.Ask.blockIdx (stepOf t) n) k) := by
  unfold iblk
  rw [View.read_apply]
  show V m c main_v14 _ = V m c main_v14 _
  congr 1
  funext a
  apply Fin.ext
  match a with
  | ⟨0, _⟩ =>
    show win0_1.index t 0 * 1024 + 1 * n.val = 1024 * (t.val % 32) + n.val
    rw [(idx1 t).1]; omega
  | ⟨1, _⟩ =>
    show win0_1.index t 1 * 512 + 1 * k.val = k.val
    rw [(idx1 t).2]; omega

/-- Window 2's block is rows `2048 · (t / 32) + p` of the column of query norms. -/
private theorem blk2_idx (c : Dev nD) (t : Fin cfg0.N) (p : Fin 2048) (u : Fin 1) :
    (iblk m c 2 t : S2048x1.Idx → EReal) (ix2 p u)
      = (V m c main_v17 : S4096x1.Idx → EReal) (ix2 (Cert.Ask.rowIdx (rowOf t) p) u) := by
  unfold iblk
  rw [View.read_apply]
  show V m c main_v17 _ = V m c main_v17 _
  congr 1
  funext a
  apply Fin.ext
  match a with
  | ⟨0, _⟩ =>
    show win0_2.index t 0 * 2048 + 1 * p.val = 2048 * (t.val / 32) + p.val
    rw [(idx2 t).1]; omega
  | ⟨1, _⟩ =>
    show win0_2.index t 1 * 1 + 1 * u.val = u.val
    rw [(idx2 t).2]; omega

/-- Window 3's block is columns `1024 · (t % 32) + n` of the row of reference norms. -/
private theorem blk3_idx (c : Dev nD) (t : Fin cfg0.N) (u : Fin 1) (n : Fin 1024) :
    (iblk m c 3 t : S1x1024.Idx → EReal) (ix2 u n)
      = (V m c main_v21 : S1x32768.Idx → EReal) (ix2 u (Cert.Ask.blockIdx (stepOf t) n)) := by
  unfold iblk
  rw [View.read_apply]
  show V m c main_v21 _ = V m c main_v21 _
  congr 1
  funext a
  apply Fin.ext
  match a with
  | ⟨0, _⟩ =>
    show win0_3.index t 0 * 1 + 1 * u.val = u.val
    rw [(idx3 t).1]; omega
  | ⟨1, _⟩ =>
    show win0_3.index t 1 * 1024 + 1 * n.val = 1024 * (t.val % 32) + n.val
    rw [(idx3 t).2]; omega

/-- Window 4's block is rows `1024 · (t % 32) + n` of the reference indicators. -/
private theorem blk4_idx (c : Dev nD) (t : Fin cfg0.N) (n : Fin 1024) (q : Fin 10) :
    (iblk m c 4 t : S1024x10.Idx → EReal) (ix2 n q)
      = (V m c main_v12 : S32768x10.Idx → EReal) (ix2 (Cert.Ask.blockIdx (stepOf t) n) q) := by
  unfold iblk
  rw [View.read_apply]
  show V m c main_v12 _ = V m c main_v12 _
  congr 1
  funext a
  apply Fin.ext
  match a with
  | ⟨0, _⟩ =>
    show win0_4.index t 0 * 1024 + 1 * n.val = 1024 * (t.val % 32) + n.val
    rw [(idx4 t).1]; omega
  | ⟨1, _⟩ =>
    show win0_4.index t 1 * 10 + 1 * q.val = q.val
    rw [(idx4 t).2]; omega

/-- Window 5's block is rows `2048 · (t / 32) + p` of the query indicators. -/
private theorem blk5_idx (c : Dev nD) (t : Fin cfg0.N) (p : Fin 2048) (q : Fin 10) :
    (iblk m c 5 t : S2048x10.Idx → EReal) (ix2 p q)
      = (V m c main_v6 : S4096x10.Idx → EReal) (ix2 (Cert.Ask.rowIdx (rowOf t) p) q) := by
  unfold iblk
  rw [View.read_apply]
  show V m c main_v6 _ = V m c main_v6 _
  congr 1
  funext a
  apply Fin.ext
  match a with
  | ⟨0, _⟩ =>
    show win0_5.index t 0 * 2048 + 1 * p.val = 2048 * (t.val / 32) + p.val
    rw [(idx5 t).1]; omega
  | ⟨1, _⟩ =>
    show win0_5.index t 1 * 10 + 1 * q.val = q.val
    rw [(idx5 t).2]; omega

/-- Two class numbers below ten are the same number exactly when their 32-bit words are the same word. -/
private theorem word_eq_iff (a b : Fin 10) : BitVec.ofNat 32 a.val = BitVec.ofNat 32 b.val ↔ a = b := by
  constructor
  · intro h
    have h' := congrArg BitVec.toNat h
    simp only [BitVec.toNat_ofNat] at h'
    have ha := a.isLt
    have hb := b.isLt
    apply Fin.ext
    omega
  · rintro rfl
    rfl

/-- The query rows of the point's row block. -/
theorem blk0_real (c : Dev nD) (hx : ∀ (a : Fin 4096) (k : Fin 512), xarr m c (ix2 a k) = ((xr a k : ℝ) : EReal))
    (t : Fin cfg0.N) (p : Fin 2048) (k : Fin 512) :
    (iblk m c 0 t : S2048x512.Idx → EReal) (ix2 p k) = ((xr (Cert.Ask.rowIdx (rowOf t) p) k : ℝ) : EReal) := by
  rw [blk0_idx, V_v13, hx]

/-- The reference rows of the point's step. -/
theorem blk1_real (c : Dev nD) (hr : ∀ (n : Fin 32768) (k : Fin 512), rarr m c (ix2 n k) = ((rr n k : ℝ) : EReal))
    (t : Fin cfg0.N) (n : Fin 1024) (k : Fin 512) :
    (iblk m c 1 t : S1024x512.Idx → EReal) (ix2 n k) = ((rr (Cert.Ask.blockIdx (stepOf t) n) k : ℝ) : EReal) := by
  rw [blk1_idx, V_v14, hr]

/-- The squared norms of the row block's query rows. -/
theorem blk2_real (c : Dev nD) (hx : ∀ (a : Fin 4096) (k : Fin 512), xarr m c (ix2 a k) = ((xr a k : ℝ) : EReal))
    (t : Fin cfg0.N) (p : Fin 2048) (u : Fin 1) :
    (iblk m c 2 t : S2048x1.Idx → EReal) (ix2 p u)
      = ((∑ k, xr (Cert.Ask.rowIdx (rowOf t) p) k * xr (Cert.Ask.rowIdx (rowOf t) p) k : ℝ) : EReal) := by
  rw [blk2_idx, V_v17]
  simp only [hx]
  rw [Cert.IdealReal.ofBits_zero]
  simp only [← EReal.coe_mul]
  rw [Cert.IdealReal.coe_sum, ← EReal.coe_add, zero_add]

/-- The squared norms of the step's reference rows. -/
theorem blk3_real (c : Dev nD) (hr : ∀ (n : Fin 32768) (k : Fin 512), rarr m c (ix2 n k) = ((rr n k : ℝ) : EReal))
    (t : Fin cfg0.N) (u : Fin 1) (n : Fin 1024) :
    (iblk m c 3 t : S1x1024.Idx → EReal) (ix2 u n)
      = ((∑ k, rr (Cert.Ask.blockIdx (stepOf t) n) k * rr (Cert.Ask.blockIdx (stepOf t) n) k : ℝ) : EReal) := by
  rw [blk3_idx, V_v21]
  simp only [hr]
  rw [Cert.IdealReal.ofBits_zero]
  simp only [← EReal.coe_mul]
  rw [Cert.IdealReal.coe_sum, ← EReal.coe_add, zero_add]

/-- The class indicators of the step's reference rows. -/
theorem blk4_real (c : Dev nD) (hyr : ∀ n : Fin 32768, yrarr m c (ix1 n) = BitVec.ofNat 32 (lr n).val)
    (t : Fin cfg0.N) (n : Fin 1024) (q : Fin 10) :
    (iblk m c 4 t : S1024x10.Idx → EReal) (ix2 n q) = ((Cert.Ask.ind lr q (Cert.Ask.blockIdx (stepOf t) n) : ℝ) : EReal) := by
  rw [blk4_idx, V_v12, hyr]
  unfold Cert.Ask.ind
  simp only [word_eq_iff]

/-- The class indicators of the row block's query rows. -/
theorem blk5_real (c : Dev nD) (hy : ∀ a : Fin 4096, yarr m c (ix1 a) = BitVec.ofNat 32 (ly a).val)
    (t : Fin cfg0.N) (p : Fin 2048) (q : Fin 10) :
    (iblk m c 5 t : S2048x10.Idx → EReal) (ix2 p q)
      = (((if ly (Cert.Ask.rowIdx (rowOf t) p) = q then 1 else 0 : ℝ)) : EReal) := by
  rw [blk5_idx, V_v6, hy]
  simp only [word_eq_iff]

end Cert.KernelIdeal.Blocks

end
-- ==== Proof.KAccum.lean ====
/-
  What the kernel's carried histogram and its output block hold, grid point by grid point, on real inputs with labels in range.

  Inside one row block the reduction runs over thirty-two blocks of 1024 reference rows. After the step that handles block
  `K` the carried histogram holds, at row `p` and class `q`, the weights of class `q` over the first `1024·(K+1)` reference
  rows (`histUpTo (K + 1)`): the first step starts from zero, every later step adds its block's weights to what the step before
  left. After the last step that is the whole histogram, and the output block holds each row's loss.
-/
import proofs.«415756_j89532888252789_2_alg».proof.Proof.Gen.KernelIdeal.Frame
import proofs.«415756_j89532888252789_2_alg».proof.Proof.KPieces
import proofs.«415756_j89532888252789_2_alg».proof.Proof.KPayload
import proofs.«415756_j89532888252789_2_alg».proof.Proof.KBlocks
import proofs.«415756_j89532888252789_2_alg».proof.Proof.IdealReal
import proofs.«415756_j89532888252789_2_alg».proof.Proof.Spec

noncomputable section

namespace Cert.KernelIdeal.Accum

open Cert.KernelIdeal Cert.KernelIdeal.Gen Cert.KernelIdeal.HostValue Cert.KernelIdeal.Blocks Idealize.ShloMosaic
open Idealize.ShloMosaic.TcCoe Idealize.SL.Sem Idealize.ShloMosaic.ValueIdx
open Cert.Ask (rowIdx blockIdx weight ind histUpTo hist mass rowLoss)

variable (m : (ℓ : Loc nD τ sig) → Buf (Elt Ideal) ℓ)
variable (xr : Fin 4096 → Fin 512 → ℝ) (rr : Fin 32768 → Fin 512 → ℝ) (ly : Fin 4096 → Fin 10) (lr : Fin 32768 → Fin 10)

/-- The inputs are real arrays and the labels are classes. -/
structure RealInputs (c : Dev nD) : Prop where
  hx : ∀ (a : Fin 4096) (k : Fin 512), xarr m c (ix2 a k) = ((xr a k : ℝ) : EReal)
  hr : ∀ (n : Fin 32768) (k : Fin 512), rarr m c (ix2 n k) = ((rr n k : ℝ) : EReal)
  hy : ∀ a : Fin 4096, yarr m c (ix1 a) = BitVec.ofNat 32 (ly a).val
  hyr : ∀ n : Fin 32768, yrarr m c (ix1 n) = BitVec.ofNat 32 (lr n).val

/-- The six input blocks at a grid point, as arrays of their literal extents. -/
abbrev b0 (c : Dev nD) (t : Fin cfg0.N) : Vec Ideal S2048x512 .bf16 := iblk m c 0 t
abbrev b1 (c : Dev nD) (t : Fin cfg0.N) : Vec Ideal S1024x512 .bf16 := iblk m c 1 t
abbrev b2 (c : Dev nD) (t : Fin cfg0.N) : Vec Ideal S2048x1 .f32 := iblk m c 2 t
abbrev b3 (c : Dev nD) (t : Fin cfg0.N) : Vec Ideal S1x1024 .f32 := iblk m c 3 t
abbrev b4 (c : Dev nD) (t : Fin cfg0.N) : Vec Ideal S1024x10 .bf16 := iblk m c 4 t
abbrev b5 (c : Dev nD) (t : Fin cfg0.N) : Vec Ideal S2048x10 .f32 := iblk m c 5 t

/-- One step's accumulating store, on the point's blocks, over a carried real block `s`: it adds the step's block of weights. -/
theorem pay3_step (c : Dev nD) (H : RealInputs m xr rr ly lr c) (t : Fin cfg0.N) (xs : Vec Ideal S2048x10 .f32)
    (s : Fin 2048 → Fin 10 → ℝ) (hs : ∀ (p : Fin 2048) (q : Fin 10), xs (ix2 p q) = ((s p q : ℝ) : EReal))
    (p : Fin 2048) (q : Fin 10) :
    k0_pay3 (F := Ideal) (b0 m c t) (b1 m c t) (b2 m c t) (b3 m c t) (b4 m c t) xs (ix2 p q)
      = ((s p q + ∑ j : Fin 1024, weight xr rr (rowIdx (rowOf t) p) (blockIdx (stepOf t) j)
            * ind lr q (blockIdx (stepOf t) j) : ℝ) : EReal) :=
  Payload.pay3_real (fun p k => xr (rowIdx (rowOf t) p) k) (fun j k => rr (blockIdx (stepOf t) j) k)
    (fun j q => ind lr q (blockIdx (stepOf t) j)) s (b0 m c t) (b1 m c t) (b2 m c t) (b3 m c t) (b4 m c t) xs
    (fun p k => blk0_real m xr c H.hx t p k) (fun n k => blk1_real m rr c H.hr t n k)
    (fun p u => blk2_real m xr c H.hx t p u) (fun u n => blk3_real m rr c H.hr t u n)
    (fun n q => blk4_real m lr c H.hyr t n q) hs p q

/-- The first step of a row block: the histogram starts from zero and takes the first block's weights. -/
theorem scratch_first (c : Dev nD) (H : RealInputs m xr rr ly lr c) (t : Fin cfg0.N) (h0 : t.val % 32 = 0)
    (p : Fin 2048) (q : Fin 10) :
    ((outsAt0 m c t.val t.isLt).2 : S2048x10.Idx → EReal) (ix2 p q)
      = ((histUpTo xr rr lr (t.val % 32 + 1) (rowIdx (rowOf t) p) q : ℝ) : EReal) := by
  have h1 : ¬ t.val % 32 = 31 := by omega
  rw [outsAt0_A m c t h0 h1]
  dsimp only
  refine (congrFun (Pieces.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h))
    (b0 m c t) (b1 m c t) (b2 m c t) (b3 m c t) (b4 m c t) (b5 m c t)) (ix2 p q)).trans ?_
  refine (pay3_step m xr rr ly lr c H t (k0_pay2 (F := Ideal)) (fun _ _ => 0)
    (fun p q => Payload.pay2_real p q) p q).trans ?_
  have hs := Cert.Ask.histUpTo_succ xr rr lr (stepOf t) (rowIdx (rowOf t) p) q
  have hK : (stepOf t).val = t.val % 32 := rfl
  rw [hK] at hs
  rw [hs, h0, Cert.Ask.histUpTo_zero]

/-- A later step: the histogram takes the step's block of weights on top of what the point before left. -/
theorem scratch_next (c : Dev nD) (H : RealInputs m xr rr ly lr c) (t : Fin cfg0.N) (h0 : ¬ t.val % 32 = 0)
    (ih : ∀ (p : Fin 2048) (q : Fin 10), ((outsAt0 m c (t.val - 1) (Nat.lt_of_le_of_lt (Nat.sub_le _ _) t.isLt)).2 : S2048x10.Idx → EReal) (ix2 p q)
      = ((histUpTo xr rr lr (t.val % 32) (rowIdx (rowOf t) p) q : ℝ) : EReal))
    (p : Fin 2048) (q : Fin 10) :
    ((outsAt0 m c t.val t.isLt).2 : S2048x10.Idx → EReal) (ix2 p q)
      = ((histUpTo xr rr lr (t.val % 32 + 1) (rowIdx (rowOf t) p) q : ℝ) : EReal) := by
  have hs := Cert.Ask.histUpTo_succ xr rr lr (stepOf t) (rowIdx (rowOf t) p) q
  have hK : (stepOf t).val = t.val % 32 := rfl
  rw [hK] at hs
  by_cases h1 : t.val % 32 = 31
  · rw [outsAt0_C m c t h0 h1]
    dsimp only
    refine (congrFun (Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1)
      (b0 m c t) (b1 m c t) (b2 m c t) (b3 m c t) (b4 m c t) (b5 m c t) (outsAt0 m c (t.val - 1) (Nat.lt_of_le_of_lt (Nat.sub_le _ _) t.isLt)).2) (ix2 p q)).trans ?_
    refine (pay3_step m xr rr ly lr c H t (outsAt0 m c (t.val - 1) (Nat.lt_of_le_of_lt (Nat.sub_le _ _) t.isLt)).2
      (fun p q => histUpTo xr rr lr (t.val % 32) (rowIdx (rowOf t) p) q) ih p q).trans ?_
    rw [hs]
  · rw [outsAt0_B m c t h0 h1]
    dsimp only
    refine (congrFun (Pieces.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h))
      (b0 m c t) (b1 m c t) (b2 m c t) (b3 m c t) (b4 m c t) (b5 m c t) (outsAt0 m c (t.val - 1) (Nat.lt_of_le_of_lt (Nat.sub_le _ _) t.isLt)).2) (ix2 p q)).trans ?_
    refine (pay3_step m xr rr ly lr c H t (outsAt0 m c (t.val - 1) (Nat.lt_of_le_of_lt (Nat.sub_le _ _) t.isLt)).2
      (fun p q => histUpTo xr rr lr (t.val % 32) (rowIdx (rowOf t) p) q) ih p q).trans ?_
    rw [hs]

/-- The carried histogram after grid point `n`: the weights over the reference rows handled so far in the point's row block. -/
theorem scratch_eq (c : Dev nD) (H : RealInputs m xr rr ly lr c) :
    ∀ (n : ℕ) (hn : n < cfg0.N) (p : Fin 2048) (q : Fin 10),
      ((outsAt0 m c n hn).2 : S2048x10.Idx → EReal) (ix2 p q)
        = ((histUpTo xr rr lr (n % 32 + 1) (rowIdx (rowOf ⟨n, hn⟩) p) q : ℝ) : EReal)
  | 0, hn, p, q => scratch_first m xr rr ly lr c H ⟨0, hn⟩ (Nat.zero_mod 32) p q
  | k + 1, hn, p, q => by
    by_cases h0 : (k + 1) % 32 = 0
    · exact scratch_first m xr rr ly lr c H ⟨k + 1, hn⟩ h0 p q
    · have hk : k < cfg0.N := Nat.lt_of_succ_lt hn
      have e1 : k % 32 + 1 = (k + 1) % 32 := by omega
      have e2 : rowOf ⟨k, hk⟩ = rowOf ⟨k + 1, hn⟩ := Fin.ext (by simp only [rowOf]; omega)
      refine scratch_next m xr rr ly lr c H ⟨k + 1, hn⟩ h0 (fun p q => ?_) p q
      have ih := scratch_eq c H k hk p q
      rw [e1, e2] at ih
      exact ih

/-- At a last step the carried histogram is the accumulating store's value over what the point before left. -/
theorem scratch_last (c : Dev nD) (t : Fin cfg0.N) (h0 : ¬ t.val % 32 = 0) (h1 : t.val % 32 = 31) :
    (outsAt0 m c t.val t.isLt).2 = k0_pay3 (F := Ideal) (b0 m c t) (b1 m c t) (b2 m c t) (b3 m c t) (b4 m c t) (outsAt0 m c (t.val - 1) (Nat.lt_of_le_of_lt (Nat.sub_le _ _) t.isLt)).2 := by
  rw [outsAt0_C m c t h0 h1]
  dsimp only
  exact Pieces.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1)
      (b0 m c t) (b1 m c t) (b2 m c t) (b3 m c t) (b4 m c t) (b5 m c t) (outsAt0 m c (t.val - 1) (Nat.lt_of_le_of_lt (Nat.sub_le _ _) t.isLt)).2

/-- The output block after a last step: each row's loss. -/
theorem out_eq (c : Dev nD) (H : RealInputs m xr rr ly lr c) (t : Fin cfg0.N) (h31 : t.val % 32 = 31)
    (p : Fin 2048) (u : Fin 1) :
    ((outsAt0 m c t.val t.isLt).1 : S2048x1.Idx → EReal) (ix2 p u)
      = ((rowLoss xr rr ly lr Cert.IdealReal.eps (rowIdx (rowOf t) p) : ℝ) : EReal) := by
  have h0 : ¬ t.val % 32 = 0 := by omega
  have hacc : ∀ (p : Fin 2048) (c' : Fin 10), k0_pay3 (F := Ideal) (b0 m c t) (b1 m c t) (b2 m c t) (b3 m c t) (b4 m c t) (outsAt0 m c (t.val - 1) (Nat.lt_of_le_of_lt (Nat.sub_le _ _) t.isLt)).2 (ix2 p c')
      = ((hist xr rr lr (rowIdx (rowOf t) p) c' : ℝ) : EReal) := by
    intro p c'
    have e := scratch_eq m xr rr ly lr c H t.val t.isLt p c'
    rw [scratch_last m c t h0 h31, h31, Cert.Ask.histUpTo_full] at e
    exact e
  rw [outsAt0_C m c t h0 h31]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h31)
      (b0 m c t) (b1 m c t) (b2 m c t) (b3 m c t) (b4 m c t) (b5 m c t) (outsAt0 m c (t.val - 1) (Nat.lt_of_le_of_lt (Nat.sub_le _ _) t.isLt)).2) (ix2 p u)).trans ?_
  exact Payload.pay1_real (fun p c' => hist xr rr lr (rowIdx (rowOf t) p) c')
    (fun p c' => if ly (rowIdx (rowOf t) p) = c' then 1 else 0)
    (k0_pay3 (F := Ideal) (b0 m c t) (b1 m c t) (b2 m c t) (b3 m c t) (b4 m c t) (outsAt0 m c (t.val - 1) (Nat.lt_of_le_of_lt (Nat.sub_le _ _) t.isLt)).2) (b5 m c t) hacc
    (fun p c' => blk5_real m ly c H.hy t p c') (fun p c' => Cert.Ask.hist_nonneg xr rr lr _ c')
    (fun p => Cert.Ask.mass_pos xr rr lr (rowIdx (rowOf t) p)) p u

end Cert.KernelIdeal.Accum

end
-- ==== Proof.KFinal.lean ====
/-
  The kernel program's result, on real inputs with labels in range: the real number `kernelLoss` of the specification.

  The launch writes the output block back only after the last reduction step of each row block, and the two row blocks'
  write-backs tile the 4096 rows: the output array ends holding each row's loss. The host then sums the 4096 losses and
  divides by 4096.
-/
import proofs.«415756_j89532888252789_2_alg».proof.Proof.Gen.KernelIdeal.Frame
import proofs.«415756_j89532888252789_2_alg».proof.Proof.KAccum
import proofs.«415756_j89532888252789_2_alg».proof.Proof.KHost
import proofs.«415756_j89532888252789_2_alg».proof.Proof.IdealReal
import proofs.«415756_j89532888252789_2_alg».proof.Proof.Spec
import Idealize.ShloMosaic.Lib.Pipeline.Value
import Idealize.ShloMosaic.Lib.ValueIdx

noncomputable section

namespace Cert.KernelIdeal.Final

open Cert.KernelIdeal Cert.KernelIdeal.Gen Cert.KernelIdeal.HostValue Cert.KernelIdeal.Blocks Cert.KernelIdeal.Accum
open Idealize.ShloMosaic Idealize.ShloMosaic.TcCoe Idealize.SL.Sem Idealize.ShloMosaic.ValueIdx
open Idealize.ShloMosaic.Pipeline (Dat)
open Cert.Ask (rowIdx rowLoss kernelLoss)

variable (m : (ℓ : Loc nD τ sig) → Buf (Elt Ideal) ℓ) (ρ : Dev nD → PrngReg)
variable (xr : Fin 4096 → Fin 512 → ℝ) (rr : Fin 32768 → Fin 512 → ℝ) (ly : Fin 4096 → Fin 10) (lr : Fin 32768 → Fin 10)

/-- The output array: each row's loss. -/
abbrev lossArr : S4096x1.Idx → EReal :=
  fun i => ((rowLoss xr rr ly lr Cert.IdealReal.eps ⟨(i 0).val, idx2_lt0 i⟩ : ℝ) : EReal)

/-- The output window's index map, decided over the grid: it moves with the row block. -/
theorem idx6 : ∀ t : Fin cfg0.N, win0_6.index t (0 : Fin 2) = t.val / 32 ∧ win0_6.index t (1 : Fin 2) = 0 :=
  (by decide +kernel : ∀ t : Fin grid0.N, win0_6.index t (0 : Fin 2) = t.val / 32 ∧ win0_6.index t (1 : Fin 2) = 0)

/-- What a last step writes back is its row block of the losses. -/
theorem flushed_eq (c : Dev nD) (H : RealInputs m xr rr ly lr c) (t : Fin cfg0.N) (hf : (cfg0.win 6).flush t = true) :
    (dats m 0 c).flushed 6 t = ((cfg0.win 6).blk t).view.read (Elt Ideal) (lossArr xr rr ly lr) := by
  have h31 : t.val % 32 = 31 := (flush0_6 t).mp hf
  show (cfg0.win 6).cut (grid0.coords t) ((dats m 0 c).after 6 t) = _
  rw [after0_6]
  funext j
  show ((outsAt0 m c t.val t.isLt).1 : S2048x1.Idx → EReal) j = lossArr xr rr ly lr (((cfg0.win 6).blk t).view.emb j)
  obtain ⟨p, u, rfl⟩ : ∃ (p : Fin 2048) (u : Fin 1), j = ix2 p u := ⟨j 0, j 1, eq_ix2 j⟩
  rw [out_eq m xr rr ly lr c H t h31 p u]
  show _ = ((rowLoss xr rr ly lr Cert.IdealReal.eps ⟨((((cfg0.win 6).blk t).view.emb (ix2 p u)) 0).val, _⟩ : ℝ) : EReal)
  congr 2
  apply Fin.ext
  show 2048 * (t.val / 32) + p.val = win0_6.index t (0 : Fin 2) * 2048 + 1 * p.val
  rw [(idx6 t).1]
  omega

/-- An index of the output array is in point `t`'s block iff each coordinate is in the block's range on its axis. -/
theorem mem_blk (t : Fin cfg0.N) (i : S4096x1.Idx) :
    i ∈ ((cfg0.win 6).blk t).view.set
      ↔ ∀ a : Fin 2, win0_6.index t a * S2048x1.size a ≤ (i a).val ∧ (i a).val < win0_6.index t a * S2048x1.size a + S2048x1.size a := by
  show i ∈ ((View.whole main_v22).slice (win0_6.rect t)).set ↔ _
  rw [View.set_slice_whole, Rect.mem_set_unit]
  exact Iff.rfl

/-- Every row is in the block some last step writes back. -/
theorem cover (i : S4096x1.Idx) : ∃ t : Fin cfg0.N, (cfg0.win 6).flush t = true ∧ i ∈ ((cfg0.win 6).blk t).view.set := by
  have hi0 : (i 0).val < 4096 := idx2_lt0 i
  have hi1 : (i 1).val < 1 := idx2_lt1 i
  have hlt : 32 * ((i 0).val / 2048) + 31 < cfg0.N := by
    show _ < grid0.N
    rw [N_0]; omega
  have key : ∀ t : Fin cfg0.N, t.val = 32 * ((i 0).val / 2048) + 31 →
      (cfg0.win 6).flush t = true ∧ i ∈ ((cfg0.win 6).blk t).view.set := by
    intro t ht
    refine ⟨(flush0_6 t).mpr (by rw [ht]; omega), ?_⟩
    rw [mem_blk]
    obtain ⟨e0, e1⟩ := idx6 t
    rw [ht] at e0
    intro a
    match a with
    | ⟨0, _⟩ =>
      show win0_6.index t (0 : Fin 2) * 2048 ≤ (i 0).val ∧ (i 0).val < win0_6.index t (0 : Fin 2) * 2048 + 2048
      rw [e0]; omega
    | ⟨1, _⟩ =>
      show win0_6.index t (1 : Fin 2) * 1 ≤ (i 1).val ∧ (i 1).val < win0_6.index t (1 : Fin 2) * 1 + 1
      rw [e1]; omega
  exact ⟨⟨32 * ((i 0).val / 2048) + 31, hlt⟩, key _ rfl⟩

/-- The output array after the launch: each row's loss. -/
theorem final (c : Dev nD) (H : RealInputs m xr rr ly lr c) : outArr m c = lossArr xr rr ly lr :=
  (dats m 0 c).arrAt_eq_of_cover 6 (lossArr xr rr ly lr) (flushed_eq m xr rr ly lr c H) cover

/-- The program's result. -/
theorem result_eq (c : Dev nD) (H : RealInputs m xr rr ly lr c) :
    (Pipeline.afterTail₀ cfgs (dats m) 0 (V0 m) [hostOps1] c main_v24 : S_.Idx → EReal)
      = fun _ => ((kernelLoss xr rr ly lr Cert.IdealReal.eps : ℝ) : EReal) := by
  rw [tail_v24 m c, final m xr rr ly lr c H]
  funext _
  have hsum : (∑ j : S4096x1.Idx, lossArr xr rr ly lr j)
      = ((∑ a : Fin 4096, rowLoss xr rr ly lr Cert.IdealReal.eps a : ℝ) : EReal) := by
    rw [sum_idx2, ← Cert.IdealReal.coe_sum]
    refine Finset.sum_congr rfl fun a _ => ?_
    rw [Fin.sum_univ_one]
  rw [hsum, Cert.IdealReal.ofBits_zero, ← EReal.coe_add, zero_add, Cert.IdealReal.ofBits_4096,
    Cert.IdealReal.div_coe (by norm_num)]
  rfl

/-- The run, read: the result at the specification's number, the arguments unchanged. -/
theorem run (H : ∀ c : Dev nD, RealInputs m xr rr ly lr c) :
    θ_run defs (onTc (τ := τ) (main (F := Ideal))) ⟨m, fun _ => 0, ρ⟩ fun r => ∀ c : Dev nD,
      r.2.mem ((c.tc : Thread nD τ).loc main_v24) = (fun _ => ((kernelLoss xr rr ly lr Cert.IdealReal.eps : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans (result_eq m xr rr ly lr c (H c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefOps.lean ====
/-
  The reference's four operations that read their operand at a place its values decide, or fold a whole axis, each read
  at an index (at the ideal instance), for labels in range.

  The maximum of a row of real scores, started from −∞, is a real number. The scatter-add of the transposed softmax into ten
  rows, each reference row `n` sent to the row of its class, leaves at class `c` and query row `a` the initial value plus the
  sum of the entries of the reference rows of class `c`. The gather along the class axis at a label in range reads that
  class's entry, and its in-range mask is all ones, so the fill value is never taken.
-/
import proofs.«415756_j89532888252789_2_alg».proof.Proof.Gen.ReferenceIdeal.Read
import proofs.«415756_j89532888252789_2_alg».proof.Proof.IdealReal
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RefOps

open Cert.ReferenceIdeal Cert.ReferenceIdeal.Gen Cert.ReferenceIdeal.Read Idealize.ShloMosaic Idealize.ShloMosaic.ValueIdx

/-- A fold of the maximum from −∞ over a nonempty finite family of real numbers is a real number. -/
private theorem fold_max_coe {ι : Type} (t : Finset ι) (f : ι → ℝ) (ht : t.Nonempty) :
    ∃ m : ℝ, t.fold (FloatOps.maximumf (F := Ideal) (φ := .f32)) (⊥ : EReal) (fun i => ((f i : ℝ) : EReal)) = ((m : ℝ) : EReal) := by
  classical
  induction t using Finset.induction_on with
  | empty => exact absurd ht (by simp)
  | insert b t hb ih =>
    rw [Finset.fold_insert hb]
    rcases t.eq_empty_or_nonempty with rfl | hne
    · exact ⟨f b, by simp⟩
    · obtain ⟨m, hm⟩ := ih hne
      refine ⟨max (f b) m, ?_⟩
      rw [hm]
      exact (EReal.coe_strictMono.monotone.map_max).symm

/-- The row maximum of real scores is a real number. -/
theorem v16_real (x0 : S4096x512.Idx → EReal) (x1 : S32768x512.Idx → EReal) (s : Fin 4096 → Fin 32768 → ℝ)
    (hs : ∀ (a : Fin 4096) (n : Fin 32768), val_main_v15 (F := Ideal) x0 x1 (ix2 a n) = ((s a n : ℝ) : EReal))
    (a : Fin 4096) :
    ∃ mval : ℝ, val_main_v16 (F := Ideal) x0 x1 (ix1 a) = ((mval : ℝ) : EReal) := by
  unfold val_main_v16
  have h : S4096x32768.Reduces [1] S4096 := by decide
  rw [Host.reduce_eq_fold_single FloatOps.maximumf _ _ reducesTo_S4096x32768_S4096_d1 h h_S_]
  -- the row's entries, one per column
  have hf : (val_main_v15 (F := Ideal) x0 x1 ∘ h.lift (ix1 a)) = fun k : Fin 32768 => ((s a k : ℝ) : EReal) := by
    funext k
    show val_main_v15 (F := Ideal) x0 x1 (h.lift (ix1 a) k) = _
    rw [← hs a k]
    congr 1
    funext c; apply Fin.ext
    fin_cases c <;> rfl
  rw [hf, val_main_cst_2_apply]
  show ∃ mval : ℝ, Finset.fold FloatOps.maximumf (Ideal.ofBits .f32 0xFF800000#32) _ _ = _
  rw [Cert.IdealReal.ofBits_neg_inf]
  exact fold_max_coe Finset.univ (s a) ⟨⟨0, by decide⟩, Finset.mem_univ _⟩

/-! ## The scatter-add: where an update lands -/

set_option maxRecDepth 4000 in
/-- The scatter start on the class axis is the scatter index of the update's row, read signed. -/
private theorem scatter_start0 (idx : IVec S32768x1 32) (n : Fin 32768) (a : Fin 4096) :
    scatter_S10x4096_S32768x1_S32768x4096_1_0_0_1.start (ix2 n a) idx 0 = (idx (ix2 n 0)).toInt := by
  have hsi : scatter_S10x4096_S32768x1_S32768x4096_1_0_0_1.siIdx (ix2 n a) ⟨0, by decide⟩ = ix2 n 0 := by
    funext b
    fin_cases b <;> rfl
  unfold ScatterDims.start
  rw [dif_pos (by decide)]
  exact congrArg (fun j => (idx j).toInt) hsi

/-- The scatter start on the window axis is zero. -/
private theorem scatter_start1 (idx : IVec S32768x1 32) (n : Fin 32768) (a : Fin 4096) :
    scatter_S10x4096_S32768x1_S32768x4096_1_0_0_1.start (ix2 n a) idx 1 = 0 := by
  unfold ScatterDims.start
  rw [dif_neg (by decide)]

/-- The class axis is an inserted one: no window coordinate. -/
private theorem scatter_window0 (n : Fin 32768) (a : Fin 4096) :
    scatter_S10x4096_S32768x1_S32768x4096_1_0_0_1.window (ix2 n a) 0 = 0 := by
  unfold ScatterDims.window
  rw [dif_neg (by decide)]

/-- The window coordinate on the query axis is the update's column. -/
private theorem scatter_window1 (n : Fin 32768) (a : Fin 4096) :
    scatter_S10x4096_S32768x1_S32768x4096_1_0_0_1.window (ix2 n a) 1 = a.val := by
  unfold ScatterDims.window
  rw [dif_pos (by decide)]
  rfl

/-- The update at (n, a), whose row's scatter index is the class `k`, lands at (k, a). -/
private theorem scatter_resultIdx (idx : IVec S32768x1 32) (n : Fin 32768) (a : Fin 4096) (k : Fin 10)
    (hk : idx (ix2 n 0) = BitVec.ofNat 32 k.val) :
    scatter_S10x4096_S32768x1_S32768x4096_1_0_0_1.resultIdx? (ix2 n a) idx = some (ix2 k a) := by
  have ht : (idx (ix2 n 0)).toInt = (k.val : Int) := by
    rw [hk]; exact StableHlo.Predicate.toInt_ofNat_small k.val (by have := k.isLt; omega)
  have h0 := scatter_start0 idx n a
  have h1 := scatter_start1 idx n a
  have w0 := scatter_window0 n a
  have w1 := scatter_window1 n a
  rw [ht] at h0
  have hk10 := k.isLt
  have ha := a.isLt
  unfold ScatterDims.resultIdx?
  have h : ∀ c, 0 ≤ scatter_S10x4096_S32768x1_S32768x4096_1_0_0_1.start (ix2 n a) idx c
        + scatter_S10x4096_S32768x1_S32768x4096_1_0_0_1.window (ix2 n a) c
      ∧ scatter_S10x4096_S32768x1_S32768x4096_1_0_0_1.start (ix2 n a) idx c
        + scatter_S10x4096_S32768x1_S32768x4096_1_0_0_1.window (ix2 n a) c < S10x4096.size c := by
    refine Fin.forall_fin_two.2 ⟨?_, ?_⟩
    · rw [h0, w0]; show (0 : Int) ≤ (k.val : Int) + ((0 : Nat) : Int) ∧ (k.val : Int) + ((0 : Nat) : Int) < ((10 : Nat) : Int); omega
    · rw [h1, w1]; show (0 : Int) ≤ 0 + (a.val : Int) ∧ (0 : Int) + (a.val : Int) < ((4096 : Nat) : Int); omega
  rw [dif_pos h]
  refine congrArg some ?_
  funext c
  apply Fin.ext
  revert c
  refine Fin.forall_fin_two.2 ⟨?_, ?_⟩
  · show (scatter_S10x4096_S32768x1_S32768x4096_1_0_0_1.start (ix2 n a) idx 0
        + scatter_S10x4096_S32768x1_S32768x4096_1_0_0_1.window (ix2 n a) 0).toNat = k.val
    rw [h0, w0]; omega
  · show (scatter_S10x4096_S32768x1_S32768x4096_1_0_0_1.start (ix2 n a) idx 1
        + scatter_S10x4096_S32768x1_S32768x4096_1_0_0_1.window (ix2 n a) 1).toNat = a.val
    rw [h1, w1]; omega

/-- The scatter-add, class by class. -/
theorem v30_apply (x0 : S4096x512.Idx → EReal) (x1 : S32768x512.Idx → EReal) (x3 : S32768.Idx → BitVec 32)
    (lr : Fin 32768 → Fin 10) (hyr : ∀ n : Fin 32768, x3 (ix1 n) = BitVec.ofNat 32 (lr n).val)
    (c : Fin 10) (a : Fin 4096) :
    val_main_v30 (F := Ideal) x0 x1 x3 (ix2 c a)
      = val_main_v28 (F := Ideal) (ix2 c a)
        + ∑ n : Fin 32768, if lr n = c then val_main_v27 (F := Ideal) x0 x1 (ix2 n a) else 0 := by
  unfold val_main_v30
  generalize val_main_v27 (F := Ideal) x0 x1 = upd
  generalize val_main_v28 (F := Ideal) = acc
  show Ideal.hostScatterAdd scatter_S10x4096_S32768x1_S32768x4096_1_0_0_1 acc (val_main_v29 (F := Ideal) x3) upd (ix2 c a) = _
  unfold Ideal.hostScatterAdd
  refine congrArg (acc (ix2 c a) + ·) ?_
  rw [Finset.sum_filter, sum_idx2]
  refine Finset.sum_congr rfl fun n _ => ?_
  -- the scatter index of row n is its class
  have hidx : val_main_v29 (F := Ideal) x3 (ix2 n 0) = BitVec.ofNat 32 (lr n).val := by
    rw [val_main_v29_apply, ← hyr n]
    refine congrArg x3 ?_
    funext d; fin_cases d; rfl
  have hterm : ∀ b : Fin 4096,
      (if scatter_S10x4096_S32768x1_S32768x4096_1_0_0_1.resultIdx? (ix2 n b) (val_main_v29 (F := Ideal) x3) = some (ix2 c a)
        then upd (ix2 n b) else 0)
        = if b = a then (if lr n = c then upd (ix2 n a) else 0) else 0 := by
    intro b
    rw [scatter_resultIdx _ n b (lr n) hidx]
    by_cases hb : b = a
    · subst hb
      by_cases hc : lr n = c
      · rw [if_pos rfl, if_pos hc, if_pos (by rw [hc])]
      · rw [if_pos rfl, if_neg hc, if_neg (fun h => hc (congrFun (Option.some.inj h) 0))]
    · rw [if_neg hb, if_neg (fun h => hb (congrFun (Option.some.inj h) 1))]
  rw [Finset.sum_congr rfl (fun b _ => hterm b), Finset.sum_ite_eq' Finset.univ a, if_pos (Finset.mem_univ a)]

/-! ## The masked gather along the class axis -/

/-- For a label in range the wrapped index word is the label's word. -/
private theorem call0_v5_word (x2 : S4096.Idx → BitVec 32) (ly : Fin 4096 → Fin 10)
    (hy : ∀ a : Fin 4096, x2 (ix1 a) = BitVec.ofNat 32 (ly a).val) (a : Fin 4096) (u v : Fin 1) :
    val_main_call0_v5 (F := Ideal) x2 (ix3 a u v) = BitVec.ofNat 32 (ly a).val := by
  have hu : u.val = 0 := by have := u.isLt; omega
  have hv : v.val = 0 := by have := v.isLt; omega
  have hk := (ly a).isLt
  have hi : idx_main_v35 (idx_main_call0_v5 (ix3 a u v)) = ix1 a := by
    funext d; fin_cases d; apply Fin.ext
    show ((a.val * 1 + u.val) * 1 + v.val) / 1 = a.val
    omega
  rw [val_main_call0_v5_apply, val_main_call0_v4_apply, val_main_call0_v1_apply, val_main_v35_apply, hi, hy a]
  have hlt : IntOp.cmpi .slt (BitVec.ofNat 32 (ly a).val) (val_main_call0_v0 (F := Ideal) (idx_main_call0_v5 (ix3 a u v))) = 0#1 := by
    rw [val_main_call0_v0_apply, val_main_call0_c_apply]
    refine eq_zero_of_ne_one fun h => ?_
    have := (StableHlo.Predicate.slt_ofNat_iff (ly a).val 0 (by omega) (by omega)).1 h
    omega
  rw [hlt, select_zero]

/-- A left fold by `and` over one-bit words that are all one leaves its start. -/
private theorem foldl_andi_all_one {ι : Type} (f : ι → BitVec 1) (hf : ∀ i, f i = 1#1) (l : List ι) (init : BitVec 1) :
    l.foldl (fun r i => IntOp.andi r (f i)) init = init := by
  induction l generalizing init with
  | nil => rfl
  | cons b l ih =>
    rw [List.foldl_cons, ih, hf b]
    revert init; decide

/-- For labels in range the in-range mask is one. -/
private theorem call0_v12_one (x2 : S4096.Idx → BitVec 32) (ly : Fin 4096 → Fin 10)
    (hy : ∀ a : Fin 4096, x2 (ix1 a) = BitVec.ofNat 32 (ly a).val) (a : Fin 4096) (u : Fin 1) :
    val_main_call0_v12 (F := Ideal) x2 (ix2 a u) = 1#1 := by
  have hx : ∀ j : S4096x1x1.Idx, val_main_call0_v11 (F := Ideal) x2 j = 1#1 := by
    intro j
    obtain ⟨p, q, r, rfl⟩ : ∃ (p : Fin 4096) (q r : Fin 1), j = ix3 p q r := ⟨j 0, j 1, j 2, eq_ix3 j⟩
    have hk := (ly p).isLt
    rw [val_main_call0_v11_apply, val_main_call0_v7_apply, val_main_call0_v10_apply, call0_v5_word x2 ly hy,
      val_main_call0_v6_apply, val_main_call0_c_2_apply, val_main_call0_v9_apply, val_main_call0_v8_apply, val_main_call0_c_1_apply]
    have h1 : IntOp.cmpi .sge (BitVec.ofNat 32 (ly p).val) 0#32 = 1#1 :=
      (StableHlo.Predicate.sle_ofNat_iff 0 (ly p).val (by omega) (by omega)).2 (Nat.zero_le _)
    have h2 : IntOp.cmpi .sle (BitVec.ofNat 32 (ly p).val) 9#32 = 1#1 :=
      (StableHlo.Predicate.sle_ofNat_iff (ly p).val 9 (by omega) (by omega)).2 (by omega)
    rw [h1, h2]; rfl
  unfold val_main_call0_v12
  rw [Host.reduce_eq_foldl, foldl_andi_all_one _ hx]
  rfl

private theorem gather_start0 (idx : IVec S4096x1x1 32) (a : Fin 4096) (u : Fin 1) :
    gather_S4096x10_S4096x1x1_S4096x1_n_1_0_0_1_2_11.start (ix2 a u) idx 0 = 0 := by
  unfold GatherDims.start
  rw [dif_neg (by decide)]

set_option maxRecDepth 4000 in
/-- On the class axis the slice starts at the index word at (a, u, 0), read signed and clamped into [0, 9]. -/
private theorem gather_start1 (idx : IVec S4096x1x1 32) (a : Fin 4096) (u : Fin 1) :
    gather_S4096x10_S4096x1x1_S4096x1_n_1_0_0_1_2_11.start (ix2 a u) idx 1 = min (idx (ix3 a u 0)).toInt.toNat 9 := by
  have hsi : gather_S4096x10_S4096x1x1_S4096x1_n_1_0_0_1_2_11.siIdx (ix2 a u) ⟨0, by decide⟩ = ix3 a u 0 := by
    funext b
    fin_cases b <;> rfl
  unfold GatherDims.start
  rw [dif_pos (by decide)]
  exact congrArg (fun j => min (idx j).toInt.toNat 9) hsi

private theorem gather_batch0 (a : Fin 4096) (u : Fin 1) :
    gather_S4096x10_S4096x1x1_S4096x1_n_1_0_0_1_2_11.batchCoord (ix2 a u) 0 = a.val := by
  unfold GatherDims.batchCoord
  rw [dif_pos (by decide)]
  rfl

private theorem gather_batch1 (a : Fin 4096) (u : Fin 1) :
    gather_S4096x10_S4096x1x1_S4096x1_n_1_0_0_1_2_11.batchCoord (ix2 a u) 1 = 0 := by
  unfold GatherDims.batchCoord
  rw [dif_neg (by decide)]

/-- The gather at (a, u), whose index word at (a, u, 0) is the class `k`, reads the operand at (a, k). -/
private theorem gather_operandIdx (idx : IVec S4096x1x1 32) (a : Fin 4096) (u : Fin 1) (k : Fin 10)
    (hk : idx (ix3 a u 0) = BitVec.ofNat 32 k.val) :
    gather_S4096x10_S4096x1x1_S4096x1_n_1_0_0_1_2_11.operandIdx (ix2 a u) idx = ix2 a k := by
  have hk10 := k.isLt
  have ht : (idx (ix3 a u 0)).toInt = (k.val : Int) := by
    rw [hk]; exact StableHlo.Predicate.toInt_ofNat_small k.val (by omega)
  funext c
  apply Fin.ext
  revert c
  refine Fin.forall_fin_two.2 ⟨?_, ?_⟩
  · show gather_S4096x10_S4096x1x1_S4096x1_n_1_0_0_1_2_11.start (ix2 a u) idx 0
        + gather_S4096x10_S4096x1x1_S4096x1_n_1_0_0_1_2_11.batchCoord (ix2 a u) 0
        + gather_S4096x10_S4096x1x1_S4096x1_n_1_0_0_1_2_11.offCoord (ix2 a u) 0 = a.val
    rw [gather_start0, gather_batch0, GatherDims.offCoord_eq_zero _ _ _ (by decide)]
    omega
  · show gather_S4096x10_S4096x1x1_S4096x1_n_1_0_0_1_2_11.start (ix2 a u) idx 1
        + gather_S4096x10_S4096x1x1_S4096x1_n_1_0_0_1_2_11.batchCoord (ix2 a u) 1
        + gather_S4096x10_S4096x1x1_S4096x1_n_1_0_0_1_2_11.offCoord (ix2 a u) 1 = k.val
    rw [gather_start1, gather_batch1, GatherDims.offCoord_eq_zero _ _ _ (by decide), ht]
    omega

/-- The masked gather at a label in range reads the label's class. -/
theorem v36_apply (x0 : S4096x512.Idx → EReal) (x1 : S32768x512.Idx → EReal) (x2 : S4096.Idx → BitVec 32)
    (x3 : S32768.Idx → BitVec 32) (ly : Fin 4096 → Fin 10) (hy : ∀ a : Fin 4096, x2 (ix1 a) = BitVec.ofNat 32 (ly a).val)
    (a : Fin 4096) (u : Fin 1) :
    val_main_v36 (F := Ideal) x0 x1 x2 x3 (ix2 a u) = val_main_v34 (F := Ideal) x0 x1 x3 (ix2 a (ly a)) := by
  rw [val_main_v36_apply, call0_v12_one x2 ly hy a u, select_one]
  unfold val_main_call0_v13 Host.gather
  exact congrArg (val_main_v34 (F := Ideal) x0 x1 x3) (gather_operandIdx _ a u (ly a) (call0_v5_word x2 ly hy a u 0))

end Cert.ReferenceIdeal.RefOps

end
-- ==== Proof.RefValue.lean ====
/-
  The reference's result, on real inputs with labels in range, is the real number `refLoss` of the specification: its
  operations composed one after the other, each a real operation on real numbers inside its domain.
-/
import proofs.«415756_j89532888252789_2_alg».proof.Proof.Gen.ReferenceIdeal.Read
import proofs.«415756_j89532888252789_2_alg».proof.Proof.RefOps
import proofs.«415756_j89532888252789_2_alg».proof.Proof.IdealReal
import proofs.«415756_j89532888252789_2_alg».proof.Proof.Spec
import Idealize.ShloMosaic.Lib.ValueIdx
import Idealize.ShloMosaic.Lib.ValueIdxRank1
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The index maps of the layout operations, at an index given by its coordinates -/

private theorem idx_v1 (a : Fin 4096) (k : Fin 512) : idx_main_v1 (ix1 a) k = ix2 a k :=
  funext fun d => Fin.ext (by match d with | ⟨0, _⟩ => rfl | ⟨1, _⟩ => rfl)
private theorem idx_v3 (n : Fin 32768) (k : Fin 512) : idx_main_v3 (ix1 n) k = ix2 n k :=
  funext fun d => Fin.ext (by match d with | ⟨0, _⟩ => rfl | ⟨1, _⟩ => rfl)
private theorem lidx_v6 (a : Fin 4096) (n : Fin 32768) (k : Fin 512) : lidx_main_v6 (ix2 a n) k = ix2 a k :=
  funext fun d => Fin.ext (by match d with | ⟨0, _⟩ => rfl | ⟨1, _⟩ => rfl)
private theorem ridx_v6 (a : Fin 4096) (n : Fin 32768) (k : Fin 512) :
    idx_main_v5 (ridx_main_v6 (ix2 a n) k) = ix2 n k :=
  funext fun d => Fin.ext (by match d with | ⟨0, _⟩ => rfl | ⟨1, _⟩ => rfl)
private theorem idx_v9 (a : Fin 4096) (n : Fin 32768) : idx_main_v4 (idx_main_v9 (ix2 a n)) = ix1 a :=
  funext fun d => Fin.ext (by match d with | ⟨0, _⟩ => rfl)
private theorem idx_v12 (a : Fin 4096) (n : Fin 32768) : idx_main_v11 (idx_main_v12 (ix2 a n)) = ix1 n :=
  funext fun d => Fin.ext (by match d with | ⟨0, _⟩ => rfl)
private theorem idx_v20 (a : Fin 4096) (n : Fin 32768) : idx_main_v19 (idx_main_v20 (ix2 a n)) = ix1 a :=
  funext fun d => Fin.ext (by match d with | ⟨0, _⟩ => rfl)
private theorem idx_v23 (a : Fin 4096) (n : Fin 32768) : idx_main_v23 (ix1 a) n = ix2 a n :=
  funext fun d => Fin.ext (by match d with | ⟨0, _⟩ => rfl | ⟨1, _⟩ => rfl)
private theorem idx_v25 (a : Fin 4096) (n : Fin 32768) : idx_main_v24 (idx_main_v25 (ix2 a n)) = ix1 a :=
  funext fun d => Fin.ext (by match d with | ⟨0, _⟩ => rfl)
private theorem idx_v27 (n : Fin 32768) (a : Fin 4096) : idx_main_v27 (ix2 n a) = ix2 a n :=
  funext fun d => Fin.ext (by match d with | ⟨0, _⟩ => rfl | ⟨1, _⟩ => rfl)
private theorem idx_v31 (a : Fin 4096) (c : Fin 10) : idx_main_v31 (ix2 a c) = ix2 c a :=
  funext fun d => Fin.ext (by match d with | ⟨0, _⟩ => rfl | ⟨1, _⟩ => rfl)
private theorem idx_v37 (a : Fin 4096) : idx_main_v37 (ix1 a) = ix2 a (0 : Fin 1) :=
  funext fun d => Fin.ext (by match d with | ⟨0, _⟩ => exact Nat.div_one _ | ⟨1, _⟩ => rfl)

/-! ## The stages, in program order, on real inputs -/

section Stages

variable (x0 : S4096x512.Idx → EReal) (x1 : S32768x512.Idx → EReal)
  (xr : Fin 4096 → Fin 512 → ℝ) (rr : Fin 32768 → Fin 512 → ℝ)
  (hx : ∀ (a : Fin 4096) (k : Fin 512), x0 (ix2 a k) = ((xr a k : ℝ) : EReal))
  (hr : ∀ (n : Fin 32768) (k : Fin 512), x1 (ix2 n k) = ((rr n k : ℝ) : EReal))

include hx in
/-- The squared norm of a query row. -/
private theorem v1_val (a : Fin 4096) :
    val_main_v1 (F := Ideal) x0 (ix1 a) = ((∑ k, xr a k * xr a k : ℝ) : EReal) := by
  have h : ∀ k : Fin 512, val_main_v0 (F := Ideal) x0 (idx_main_v1 (ix1 a) k) = ((xr a k * xr a k : ℝ) : EReal) := by
    intro k
    rw [idx_v1, val_main_v0_apply, Ideal.mulf_def, hx, ← EReal.coe_mul]
  rw [val_main_v1_apply, val_main_cst_apply, Ideal.ofBits_def, Cert.IdealReal.ofBits_zero,
    Finset.sum_congr rfl (fun k _ => h k), Cert.IdealReal.coe_sum, ← EReal.coe_add, zero_add]

include hr in
/-- The squared norm of a reference row. -/
private theorem v3_val (n : Fin 32768) :
    val_main_v3 (F := Ideal) x1 (ix1 n) = ((∑ k, rr n k * rr n k : ℝ) : EReal) := by
  have h : ∀ k : Fin 512, val_main_v2 (F := Ideal) x1 (idx_main_v3 (ix1 n) k) = ((rr n k * rr n k : ℝ) : EReal) := by
    intro k
    rw [idx_v3, val_main_v2_apply, Ideal.mulf_def, hr, ← EReal.coe_mul]
  rw [val_main_v3_apply, val_main_cst_0_apply, Ideal.ofBits_def, Cert.IdealReal.ofBits_zero,
    Finset.sum_congr rfl (fun k _ => h k), Cert.IdealReal.coe_sum, ← EReal.coe_add, zero_add]

include hx hr in
/-- The inner product of a query row and a reference row. -/
private theorem v6_val (a : Fin 4096) (n : Fin 32768) :
    val_main_v6 (F := Ideal) x0 x1 (ix2 a n) = ((∑ k, xr a k * rr n k : ℝ) : EReal) := by
  have h : ∀ k : Fin 512, x0 (lidx_main_v6 (ix2 a n) k) * val_main_v5 (F := Ideal) x1 (ridx_main_v6 (ix2 a n) k)
      = ((xr a k * rr n k : ℝ) : EReal) := by
    intro k
    rw [lidx_v6, val_main_v5_apply, ridx_v6, hx, hr, ← EReal.coe_mul]
  rw [val_main_v6_apply, Finset.sum_congr rfl (fun k _ => h k), Cert.IdealReal.coe_sum]

include hx hr in
/-- The squared distance, in expanded form. -/
private theorem v13_val (a : Fin 4096) (n : Fin 32768) :
    val_main_v13 (F := Ideal) x0 x1 (ix2 a n) = ((Cert.Ask.sqd xr rr a n : ℝ) : EReal) := by
  rw [val_main_v13_apply, val_main_v10_apply, val_main_v9_apply, val_main_v4_apply, idx_v9, v1_val x0 xr hx,
    val_main_v8_apply, val_main_v7_apply, val_main_cst_1_apply, v6_val x0 x1 xr rr hx hr,
    val_main_v12_apply, val_main_v11_apply, idx_v12, v3_val x1 rr hr,
    Ideal.ofBits_def, Cert.IdealReal.ofBits_two, Ideal.mulf_def, Ideal.subf_def, Ideal.addf_def,
    ← EReal.coe_mul, ← EReal.coe_sub, ← EReal.coe_add]
  rfl

include hx hr in
/-- The score: minus the distance. -/
private theorem v15_val (a : Fin 4096) (n : Fin 32768) :
    val_main_v15 (F := Ideal) x0 x1 (ix2 a n) = ((-(Real.sqrt (Cert.Ask.sqd xr rr a n)) : ℝ) : EReal) := by
  rw [val_main_v15_apply, val_main_v14_apply, v13_val x0 x1 xr rr hx hr, Ideal.hostUnary_sqrt_def,
    Cert.IdealReal.sqrt_coe (Cert.Ask.sqd_nonneg xr rr a n), Ideal.hostNegf_def, Ideal.negf_def, ← EReal.coe_neg]

end Stages

section Softmax

variable (x0 : S4096x512.Idx → EReal) (x1 : S32768x512.Idx → EReal)
  (xr : Fin 4096 → Fin 512 → ℝ) (rr : Fin 32768 → Fin 512 → ℝ) (mm : Fin 4096 → ℝ)
  (hx : ∀ (a : Fin 4096) (k : Fin 512), x0 (ix2 a k) = ((xr a k : ℝ) : EReal))
  (hr : ∀ (n : Fin 32768) (k : Fin 512), x1 (ix2 n k) = ((rr n k : ℝ) : EReal))
  (hm : ∀ a : Fin 4096, val_main_v16 (F := Ideal) x0 x1 (ix1 a) = ((mm a : ℝ) : EReal))

include hm in
/-- The maximum of −∞ and the row maximum is the row maximum. -/
private theorem v18_val (a : Fin 4096) :
    val_main_v18 (F := Ideal) x0 x1 (ix1 a) = ((mm a : ℝ) : EReal) := by
  rw [val_main_v18_apply, val_main_v17_apply, val_main_cst_3_apply, Ideal.ofBits_def, Cert.IdealReal.ofBits_neg_inf,
    hm, Ideal.maximumf_def, max_eq_right bot_le]

include hx hr hm in
/-- A shifted score, exponentiated. -/
private theorem v22_val (a : Fin 4096) (n : Fin 32768) :
    val_main_v22 (F := Ideal) x0 x1 (ix2 a n) = ((Cert.Ask.shifted xr rr mm a n : ℝ) : EReal) := by
  rw [val_main_v22_apply, val_main_v21_apply, v15_val x0 x1 xr rr hx hr, val_main_v20_apply, val_main_v19_apply,
    idx_v20, v18_val x0 x1 mm hm, Ideal.subf_def, ← EReal.coe_sub, Ideal.hostUnary_exp_def, Ideal.exp_coe]
  rfl

/-- A row's sum of exponentials is positive. -/
private theorem sum_shifted_pos (a : Fin 4096) : 0 < ∑ n, Cert.Ask.shifted xr rr mm a n :=
  Finset.sum_pos (fun n _ => Real.exp_pos _) Finset.univ_nonempty

include hx hr hm in
/-- The softmax's denominator. -/
private theorem v23_val (a : Fin 4096) :
    val_main_v23 (F := Ideal) x0 x1 (ix1 a) = ((∑ n, Cert.Ask.shifted xr rr mm a n : ℝ) : EReal) := by
  have h : ∀ n : Fin 32768, val_main_v22 (F := Ideal) x0 x1 (idx_main_v23 (ix1 a) n)
      = ((Cert.Ask.shifted xr rr mm a n : ℝ) : EReal) := by
    intro n
    rw [idx_v23, v22_val x0 x1 xr rr mm hx hr hm]
  rw [val_main_v23_apply, val_main_cst_4_apply, Ideal.ofBits_def, Cert.IdealReal.ofBits_zero,
    Finset.sum_congr rfl (fun n _ => h n), Cert.IdealReal.coe_sum, ← EReal.coe_add, zero_add]

include hx hr hm in
/-- The softmax. -/
private theorem v26_val (a : Fin 4096) (n : Fin 32768) :
    val_main_v26 (F := Ideal) x0 x1 (ix2 a n) = ((Cert.Ask.softmax xr rr mm a n : ℝ) : EReal) := by
  rw [val_main_v26_apply, v22_val x0 x1 xr rr mm hx hr hm, val_main_v25_apply, val_main_v24_apply, idx_v25,
    v23_val x0 x1 xr rr mm hx hr hm, Ideal.hostDivf_def, Cert.IdealReal.div_coe (sum_shifted_pos xr rr mm a).ne']
  rfl

end Softmax

section Loss

variable (x0 : S4096x512.Idx → EReal) (x1 : S32768x512.Idx → EReal) (x2 : S4096.Idx → BitVec 32)
  (x3 : S32768.Idx → BitVec 32)
  (xr : Fin 4096 → Fin 512 → ℝ) (rr : Fin 32768 → Fin 512 → ℝ) (ly : Fin 4096 → Fin 10) (lr : Fin 32768 → Fin 10)
  (mm : Fin 4096 → ℝ)
  (hx : ∀ (a : Fin 4096) (k : Fin 512), x0 (ix2 a k) = ((xr a k : ℝ) : EReal))
  (hr : ∀ (n : Fin 32768) (k : Fin 512), x1 (ix2 n k) = ((rr n k : ℝ) : EReal))
  (hy : ∀ a : Fin 4096, x2 (ix1 a) = BitVec.ofNat 32 (ly a).val)
  (hyr : ∀ n : Fin 32768, x3 (ix1 n) = BitVec.ofNat 32 (lr n).val)
  (hm : ∀ a : Fin 4096, val_main_v16 (F := Ideal) x0 x1 (ix1 a) = ((mm a : ℝ) : EReal))

/-- A class's softmax mass is not negative. -/
private theorem classMass_nonneg (a : Fin 4096) (c : Fin 10) : 0 ≤ Cert.Ask.classMass xr rr lr mm a c := by
  rw [Cert.Ask.classMass_eq]
  exact div_nonneg (Cert.Ask.hist_nonneg xr rr lr a c) (Cert.Ask.mass_pos xr rr lr a).le

include hx hr hyr hm in
/-- The scatter-add leaves each class's softmax mass. -/
private theorem v30_val (a : Fin 4096) (c : Fin 10) :
    val_main_v30 (F := Ideal) x0 x1 x3 (ix2 c a) = ((Cert.Ask.classMass xr rr lr mm a c : ℝ) : EReal) := by
  have h : ∀ n : Fin 32768, (if lr n = c then val_main_v27 (F := Ideal) x0 x1 (ix2 n a) else 0)
      = (((if lr n = c then Cert.Ask.softmax xr rr mm a n else 0 : ℝ)) : EReal) := by
    intro n
    rw [val_main_v27_apply, idx_v27, v26_val x0 x1 xr rr mm hx hr hm]
    split_ifs
    exacts [rfl, EReal.coe_zero.symm]
  rw [Cert.ReferenceIdeal.RefOps.v30_apply x0 x1 x3 lr hyr c a, val_main_v28_apply, val_main_cst_5_apply,
    Ideal.ofBits_def, Cert.IdealReal.ofBits_zero, Finset.sum_congr rfl (fun n _ => h n), Cert.IdealReal.coe_sum,
    ← EReal.coe_add, zero_add]
  rfl

include hx hr hyr hm in
/-- The logarithm of a class's mass plus the small constant. -/
private theorem v34_val (a : Fin 4096) (c : Fin 10) :
    val_main_v34 (F := Ideal) x0 x1 x3 (ix2 a c)
      = ((Real.log (Cert.Ask.classMass xr rr lr mm a c + Cert.IdealReal.eps) : ℝ) : EReal) := by
  rw [val_main_v34_apply, val_main_v33_apply, val_main_v31_apply, idx_v31,
    v30_val x0 x1 x3 xr rr lr mm hx hr hyr hm, val_main_v32_apply, val_main_cst_6_apply, Ideal.ofBits_def,
    Cert.IdealReal.ofBits_eps, Ideal.addf_def, ← EReal.coe_add, Ideal.hostUnary_log_def,
    Cert.IdealReal.log_coe (add_pos_of_nonneg_of_pos (classMass_nonneg xr rr lr mm a c) Cert.IdealReal.eps_pos)]

include hx hr hy hyr hm in
/-- A row's term: the logarithm at the row's own class. -/
private theorem v37_val (a : Fin 4096) :
    val_main_v37 (F := Ideal) x0 x1 x2 x3 (ix1 a)
      = ((Real.log (Cert.Ask.classMass xr rr lr mm a (ly a) + Cert.IdealReal.eps) : ℝ) : EReal) := by
  rw [val_main_v37_apply, idx_v37, Cert.ReferenceIdeal.RefOps.v36_apply x0 x1 x2 x3 ly hy a 0,
    v34_val x0 x1 x3 xr rr lr mm hx hr hyr hm]

include hx hr hy hyr hm in
/-- The result: minus the mean of the rows' terms. -/
private theorem v40_val (i : S_.Idx) :
    val_main_v40 (F := Ideal) x0 x1 x2 x3 i
      = ((Cert.Ask.refLoss xr rr ly lr Cert.IdealReal.eps mm : ℝ) : EReal) := by
  have hs : ∑ j : S4096.Idx, val_main_v37 (F := Ideal) x0 x1 x2 x3 j
      = ∑ a : Fin 4096, ((Real.log (Cert.Ask.classMass xr rr lr mm a (ly a) + Cert.IdealReal.eps) : ℝ) : EReal) :=
    Fintype.sum_equiv idxEquiv1 _ _ (fun j => by
      obtain ⟨a, rfl⟩ : ∃ a, j = ix1 a := ⟨j 0, eq_ix1 j⟩
      exact v37_val x0 x1 x2 x3 xr rr ly lr mm hx hr hy hyr hm a)
  rw [val_main_v40_apply, val_main_v39_apply, val_main_v38_apply, val_main_cst_7_apply, hs, val_main_cst_8_apply,
    Ideal.ofBits_def, Ideal.ofBits_def, Cert.IdealReal.ofBits_zero, Cert.IdealReal.ofBits_4096, Cert.IdealReal.coe_sum,
    ← EReal.coe_add, zero_add, Ideal.hostDivf_def, Cert.IdealReal.div_coe (by norm_num), Ideal.hostNegf_def,
    Ideal.negf_def, ← EReal.coe_neg]
  rfl

end Loss

/-- The reference's result is `refLoss` at some finite shift (the row maxima). -/
theorem ref_value (x0 : S4096x512.Idx → EReal) (x1 : S32768x512.Idx → EReal) (x2 : S4096.Idx → BitVec 32)
    (x3 : S32768.Idx → BitVec 32)
    (xr : Fin 4096 → Fin 512 → ℝ) (rr : Fin 32768 → Fin 512 → ℝ) (ly : Fin 4096 → Fin 10) (lr : Fin 32768 → Fin 10)
    (hx : ∀ (a : Fin 4096) (k : Fin 512), x0 (ix2 a k) = ((xr a k : ℝ) : EReal))
    (hr : ∀ (n : Fin 32768) (k : Fin 512), x1 (ix2 n k) = ((rr n k : ℝ) : EReal))
    (hy : ∀ a : Fin 4096, x2 (ix1 a) = BitVec.ofNat 32 (ly a).val)
    (hyr : ∀ n : Fin 32768, x3 (ix1 n) = BitVec.ofNat 32 (lr n).val) :
    ∃ mm : Fin 4096 → ℝ, val_main_v40 (F := Ideal) x0 x1 x2 x3
      = fun _ => ((Cert.Ask.refLoss xr rr ly lr Cert.IdealReal.eps mm : ℝ) : EReal) := by
  have hs : ∀ a : Fin 4096, ∃ mval : ℝ, val_main_v16 (F := Ideal) x0 x1 (ix1 a) = ((mval : ℝ) : EReal) := fun a =>
    Cert.ReferenceIdeal.RefOps.v16_real x0 x1 (fun a n => -(Real.sqrt (Cert.Ask.sqd xr rr a n)))
      (fun a n => v15_val x0 x1 xr rr hx hr a n) a
  choose mm hm using hs
  exact ⟨mm, funext fun i => v40_val x0 x1 x2 x3 xr rr ly lr mm hx hr hy hyr hm i⟩

end Cert.ReferenceIdeal.RefValue

end
-- ==== Proof.lean ====
/-
  A soft nearest-neighbour loss, computed two ways, is one number.

  Both programs take 4096 query rows and 32768 reference rows of 512 features, a class label out of ten for each query row and
  each reference row, and return the mean over the query rows of  −log (the share of the row's own class among its softmax
  weights + ε),  the softmax taken over the reference rows of minus the distance (the square root of
  ‖x‖² − 2⟨x, r⟩ + ‖r‖²).

  The kernel walks each block of 2048 query rows over thirty-two blocks of 1024 reference rows. It never subtracts a
  maximum: a distance is never negative, so every exponent is at most zero; it clamps the squared distance at zero, which
  changes nothing because the expanded form is a sum of squares; it keeps, per row, the weights added up class by class (a
  product with the block of class indicators), takes the row's total as the softmax denominator (every reference row has
  exactly one class, its label being in range), and at the last step reports  −(log (h + ε·M) − log M)  at the row's own class,
  which is  −log (h / M + ε)  since  M > 0.  The reference subtracts the row maximum — a finite number that cancels between
  numerator and denominator —, normalises, adds the weights up by a scatter over the labels, and gathers the row's own class.

  The statement holds for finite inputs and labels in the ten classes: outside that range the two programs' own indexing
  differs (an indicator that matches no class against an index that wraps or is dropped).

  The frames of the two kernel programs are the generated ones; the reference's is its generated run with the result
  dropped; the idealization rewrote nothing. For the value claim both results are read as the coercion of a real number
  (`Final.run` for the kernel, the generated run with `RefValue.ref_value` for the reference) and the two real numbers are
  equal (`Cert.Ask.kernelLoss_eq_refLoss`).
-/
import proofs.«415756_j89532888252789_2_alg».proof.Defs
import proofs.«415756_j89532888252789_2_alg».proof.Proof.Gen.Kernel
import proofs.«415756_j89532888252789_2_alg».proof.Proof.Gen.Kernel.Skeleton
import proofs.«415756_j89532888252789_2_alg».proof.Proof.Gen.Kernel.Launch
import proofs.«415756_j89532888252789_2_alg».proof.Proof.Gen.Kernel.Points
import proofs.«415756_j89532888252789_2_alg».proof.Proof.Gen.Kernel.Frame
import proofs.«415756_j89532888252789_2_alg».proof.Proof.Gen.KernelIdeal
import proofs.«415756_j89532888252789_2_alg».proof.Proof.Gen.KernelIdeal.Skeleton
import proofs.«415756_j89532888252789_2_alg».proof.Proof.Gen.KernelIdeal.Launch
import proofs.«415756_j89532888252789_2_alg».proof.Proof.Gen.KernelIdeal.Points
import proofs.«415756_j89532888252789_2_alg».proof.Proof.Gen.KernelIdeal.Frame
import proofs.«415756_j89532888252789_2_alg».proof.Proof.Gen.ReferenceIdeal
import proofs.«415756_j89532888252789_2_alg».proof.Proof.Gen.ReferenceIdeal.Run
import proofs.«415756_j89532888252789_2_alg».proof.Proof.Gen.ReferenceIdeal.Read
import proofs.«415756_j89532888252789_2_alg».proof.Proof.Gen.Pre_finite_inputs
import proofs.«415756_j89532888252789_2_alg».proof.Proof.PreDecode
import proofs.«415756_j89532888252789_2_alg».proof.Proof.KFinal
import proofs.«415756_j89532888252789_2_alg».proof.Proof.RefValue
import proofs.«415756_j89532888252789_2_alg».proof.Proof.Spec
import proofs.«415756_j89532888252789_2_alg».proof.Proof.IdealReal
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its run, with the result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On finite inputs with labels in range both programs end at the same real number. -/
theorem algebraic : Cert.algebraic_KernelIdeal_ReferenceIdeal := by
  intro m ρ m' ρ' hpre hagree
  obtain ⟨xr, rr, ly, lr, hx, hr, hy, hyr⟩ := Cert.PreDecode.decode _ _ _ _ (hpre 0)
  have H : ∀ c : Dev Cert.KernelIdeal.nD, Cert.KernelIdeal.Accum.RealInputs m xr rr ly lr c := fun c => by
    obtain rfl : c = 0 := Subsingleton.elim _ _
    exact ⟨hx, hr, hy, hyr⟩
  obtain ⟨mm, hmm⟩ := Cert.ReferenceIdeal.RefValue.ref_value
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    xr rr ly lr
    (fun a k => (congrFun (hagree 0).1 (ix2 a k)).trans (hx a k))
    (fun n k => (congrFun (hagree 0).2.1 (ix2 n k)).trans (hr n k))
    (fun a => (congrFun (hagree 0).2.2.1 (ix1 a)).trans (hy a))
    (fun n => (congrFun (hagree 0).2.2.2 (ix1 n)).trans (hyr n))
  refine ⟨fun _ _ => ((Cert.Ask.kernelLoss xr rr ly lr Cert.IdealReal.eps : ℝ) : EReal),
    Cert.KernelIdeal.Final.run m ρ xr rr ly lr H, ?_⟩
  refine (θ_run Cert.ReferenceIdeal.defs _ _).mono (fun _ h c => ?_) (Cert.ReferenceIdeal.Value.run (F := Ideal) m' ρ')
  obtain rfl : c = 0 := Subsingleton.elim _ _
  refine ⟨(h 0).1.trans ?_, (h 0).2⟩
  rw [Cert.ReferenceIdeal.Read.val_main_v40_eq, hmm,
    Cert.Ask.kernelLoss_eq_refLoss xr rr ly lr Cert.IdealReal.eps Cert.IdealReal.eps_pos mm]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
